-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39x1 : Shape := ⟨3, ![16384, 39, 1]⟩
abbrev S16384x39 : Shape := ⟨2, ![16384, 39]⟩
abbrev S13x16 : Shape := ⟨2, ![13, 16]⟩
abbrev S26x100000x16 : Shape := ⟨3, ![26, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S16384 : Shape := ⟨1, ![16384]⟩
abbrev S_ : Shape := ⟨0, ![]⟩

class Facts : Prop where
  bcast_S_S16384x39 : S_.BroadcastsInDim S16384x39 (![] : Fin 0 → Fin S16384x39.rank)
  reducesTo_S16384x39_S_d0_1 : S16384x39.ReducesTo [0, 1] S_
  h_S_ : 0 < S_.numel
  bcast_S_S13x16 : S_.BroadcastsInDim S13x16 (![] : Fin 0 → Fin S13x16.rank)
  reducesTo_S13x16_S_d0_1 : S13x16.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S624x512 : S_.BroadcastsInDim S624x512 (![] : Fin 0 → Fin S624x512.rank)
  reducesTo_S624x512_S_d0_1 : S624x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg15 : FVec F S256 .f32) (main_arg16 : FVec F S16384 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S16384 .f32 := Host.absf main_arg16
  let main_cst_28 : FVec F S_ .f32 := constant S_ .f32 0x7F800000#32
  let main_v75 : FVec F S16384 .f32 := broadcastInDim S16384 ![] bcast_S_S16384 main_cst_28
  let main_v76 : IVec S16384 1 := cmpf .olt main_v74 main_v75
  let main_c_29 : IVec S_ 1 := constantI S_ 1 1#1
  let main_v77 : IVec S_ 1 := (fun x v => Host.reduce IntOp.andi x v reducesTo_S16384_S_d0 h_S_) main_v76 main_c_29
  let main_v78 : IVec S_ 1 := andi main_v73 main_v77
  main_v78

def fn_part3 {F : FTy → Type} [FloatOps F] (main_arg12 : FVec F S512x256 .f32) (main_arg13 : FVec F S256 .f32) (main_arg14 : FVec F S256 .f32) (main_arg15 : FVec F S256 .f32) (main_arg16 : FVec F S16384 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S624x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S16384 .f32) (main_v33 : IVec S_ 1) : IVec S_ 1 :=
  let main_v34 : FVec F S624x512 .f32 := Host.absf main_arg8
  let main_cst_12 : FVec F S_ .f32 := constant S_ .f32 0x7F800000#32
  let main_v35 : FVec F S624x512 .f32 := broadcastInDim S624x512 ![] bcast_S_S624x512 main_cst_12
  let main_v36 : IVec S624x512 1 := cmpf .olt main_v34 main_v35
  let main_c_13 : IVec S_ 1 := constantI S_ 1 1#1
  let main_v37 : IVec S_ 1 := (fun x v => Host.reduce IntOp.andi x v reducesTo_S624x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_v48 main_v49 main_v50

def fn_part1 {F : FTy → Type} [FloatOps F] (main_arg5 : FVec F S13x16 .f32) (main_arg6 : FVec F S13x16 .f32) (main_arg7 : FVec F S26x100000x16 .f32) (main_arg8 : FVec F S624x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S16384 .f32) (main_v13 : IVec S_ 1) (main_v16 : IVec S26x100000x16 1) : IVec S_ 1 :=
  let main_c_5 : IVec S_ 1 := constantI S_ 1 1#1
  let main_v17 : IVec S_ 1 := (fun x v => Host.reduce IntOp.andi x v reducesTo_S26x100000x16_S_d0_1_2 h_S_) main_v16 main_c_5
  let main_v18 : IVec S_ 1 := andi main_v13 main_v17
  let main_v19 : FVec F S13x16 .f32 := Host.absf main_arg5
  let main_cst_6 : FVec F S_ .f32 := constant S_ .f32 0x7F800000#32
  let main_v20 : FVec F S13x16 .f32 := broadcastInDim S13x16 ![] bcast_S_S13x16 main_cst_6
  let main_v21 : IVec S13x16 1 := cmpf .olt main_v19 main_v20
  let main_c_7 : IVec S_ 1 := constantI S_ 1 1#1
  let main_v22 : IVec S_ 1 := (fun x v => Host.reduce IntOp.andi x v reducesTo_S13x16_S_d0_1 h_S_) main_v21 main_c_7
  let main_v23 : IVec S_ 1 := andi main_v18 main_v22
  let main_v24 : FVec F S13x16 .f32 := Host.absf main_arg6
  let main_cst_8 : FVec F S_ .f32 := constant S_ .f32 0x7F800000#32
  let main_v25 : FVec F S13x16 .f32 := broadcastInDim S13x16 ![] bcast_S_S13x16 main_cst_8
  let main_v26 : IVec S13x16 1 := cmpf .olt main_v24 main_v25
  let main_c_9 : IVec S_ 1 := constantI S_ 1 1#1
  let main_v27 : IVec S_ 1 := (fun x v => Host.reduce IntOp.andi x v reducesTo_S13x16_S_d0_1 h_S_) main_v26 main_c_9
  let main_v28 : IVec S_ 1 := andi main_v23 main_v27
  let main_v29 : FVec F S26x100000x16 .f32 := Host.absf main_arg7
  let main_cst_10 : FVec F S_ .f32 := constant S_ .f32 0x7F800000#32
  let main_v30 : FVec F S26x100000x16 .f32 := broadcastInDim S26x100000x16 ![] bcast_S_S26x100000x16 main_cst_10
  let main_v31 : IVec S26x100000x16 1 := cmpf .olt main_v29 main_v30
  let main_c_11 : IVec S_ 1 := constantI S_ 1 1#1
  let main_v32 : IVec S_ 1 := (fun x v => Host.reduce IntOp.andi x v reducesTo_S26x100000x16_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S16384x39x1 32) (main_arg1 : FVec F S16384x39 .f32) (main_arg2 : FVec F S13x16 .f32) (main_arg3 : FVec F S13x16 .f32) (main_arg4 : FVec F S26x100000x16 .f32) (main_arg5 : FVec F S13x16 .f32) (main_arg6 : FVec F S13x16 .f32) (main_arg7 : FVec F S26x100000x16 .f32) (main_arg8 : FVec F S624x512 .f32) (main_arg9 : FVec F S512 .f32) (main_arg10 : FVec F S512 .f32) (main_arg11 : FVec F S512 .f32) (main_arg12 : FVec F S512x256 .f32) (main_arg13 : FVec F S256 .f32) (main_arg14 : FVec F S256 .f32) (main_arg15 : FVec F S256 .f32) (main_arg16 : FVec F S16384 .f32) : IVec S_ 1 :=
  let main_v0 : FVec F S16384x39 .f32 := Host.absf main_arg1
  let main_cst : FVec F S_ .f32 := constant S_ .f32 0x7F800000#32
  let main_v1 : FVec F S16384x39 .f32 := broadcastInDim S16384x39 ![] bcast_S_S16384x39 main_cst
  let main_v2 : IVec S16384x39 1 := cmpf .olt main_v0 main_v1
  let main_c : IVec S_ 1 := constantI S_ 1 1#1
  let main_v3 : IVec S_ 1 := (fun x v => Host.reduce IntOp.andi x v reducesTo_S16384x39_S_d0_1 h_S_) main_v2 main_c
  let main_v4 : FVec F S13x16 .f32 := Host.absf main_arg2
  let main_cst_0 : FVec F S_ .f32 := constant S_ .f32 0x7F800000#32
  let main_v5 : FVec F S13x16 .f32 := broadcastInDim S13x16 ![] bcast_S_S13x16 main_cst_0
  let main_v6 : IVec S13x16 1 := cmpf .olt main_v4 main_v5
  let main_c_1 : IVec S_ 1 := constantI S_ 1 1#1
  let main_v7 : IVec S_ 1 := (fun x v => Host.reduce IntOp.andi x v reducesTo_S13x16_S_d0_1 h_S_) main_v6 main_c_1
  let main_v8 : IVec S_ 1 := andi main_v3 main_v7
  let main_v9 : FVec F S13x16 .f32 := Host.absf main_arg3
  let main_cst_2 : FVec F S_ .f32 := constant S_ .f32 0x7F800000#32
  let main_v10 : FVec F S13x16 .f32 := broadcastInDim S13x16 ![] bcast_S_S13x16 main_cst_2
  let main_v11 : IVec S13x16 1 := cmpf .olt main_v9 main_v10
  let main_c_3 : IVec S_ 1 := constantI S_ 1 1#1
  let main_v12 : IVec S_ 1 := (fun x v => Host.reduce IntOp.andi x v reducesTo_S13x16_S_d0_1 h_S_) main_v11 main_c_3
  let main_v13 : IVec S_ 1 := andi main_v8 main_v12
  let main_v14 : FVec F S26x100000x16 .f32 := Host.absf main_arg4
  let main_cst_4 : FVec F S_ .f32 := constant S_ .f32 0x7F800000#32
  let main_v15 : FVec F S26x100000x16 .f32 := broadcastInDim S26x100000x16 ![] bcast_S_S26x100000x16 main_cst_4
  let main_v16 : IVec S26x100000x16 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S16384x39x1 : Shape := ⟨3, ![16384, 39, 1]⟩
abbrev S16384x39 : Shape := ⟨2, ![16384, 39]⟩
abbrev S13x16 : Shape := ⟨2, ![13, 16]⟩
abbrev S26x100000x16 : Shape := ⟨3, ![26, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S16384 : Shape := ⟨1, ![16384]⟩
abbrev S16384x13x1 : Shape := ⟨3, ![16384, 13, 1]⟩
abbrev S16384x13 : Shape := ⟨2, ![16384, 13]⟩
abbrev S16384x26x1 : Shape := ⟨3, ![16384, 26, 1]⟩
abbrev S16384x26 : Shape := ⟨2, ![16384, 26]⟩
abbrev S26 : Shape := ⟨1, ![26]⟩
abbrev S1x26 : Shape := ⟨2, ![1, 26]⟩
abbrev S_ : Shape := ⟨0, ![]⟩
abbrev S16384x26x2 : Shape := ⟨3, ![16384, 26, 2]⟩
abbrev S16384x26x16 : Shape := ⟨3, ![16384, 26, 16]⟩
abbrev S1024x13 : Shape := ⟨2, ![1024, 13]⟩
abbrev S1024x26 : Shape := ⟨2, ![1024, 26]⟩
abbrev S1024x26x16 : Shape := ⟨3, ![1024, 26, 16]⟩
abbrev S1024 : Shape := ⟨1, ![1024]⟩
abbrev S1024x13x1 : Shape := ⟨3, ![1024, 13, 1]⟩
abbrev S1x13x16 : Shape := ⟨3, ![1, 13, 16]⟩
abbrev S1024x13x16 : Shape := ⟨3, ![1024, 13, 16]⟩
abbrev S1024x26x1 : Shape := ⟨3, ![1024, 26, 1]⟩
abbrev S1024x208 : Shape := ⟨2, ![1024, 208]⟩
abbrev S1024x416 : Shape := ⟨2, ![1024, 416]⟩
abbrev S1024x16 : Shape := ⟨2, ![1024, 16]⟩
abbrev S1024x624 : Shape := ⟨2, ![1024, 624]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩

abbrev nBuf : Space → Nat
  | .hbm => 65
  | .vmem => 26
  | .smem => 0
  | _ => 0

abbrev bufTy : (tb : Table) → Fin (tcTables nBuf tb) → BufTy
  | .hbm, ⟨0, _⟩ => ⟨S16384x39x1, .i32⟩
  | .hbm, ⟨1, _⟩ => ⟨S16384x39, .f32⟩
  | .hbm, ⟨2, _⟩ => ⟨S13x16, .f32⟩
  | .hbm, ⟨3, _⟩ => ⟨S13x16, .f32⟩
  | .hbm, ⟨4, _⟩ => ⟨S26x100000x16, .f32⟩
  | .hbm, ⟨5, _⟩ => ⟨S13x16, .f32⟩
  | .hbm, ⟨6, _⟩ => ⟨S13x16, .f32⟩
  | .hbm, ⟨7, _⟩ => ⟨S26x100000x16, .f32⟩
  | .hbm, ⟨8, _⟩ => ⟨S624x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S16384, .f32⟩
  | .hbm, ⟨17, _⟩ => ⟨S16384x13x1, .i32⟩
  | .hbm, ⟨18, _⟩ => ⟨S16384x13, .i32⟩
  | .hbm, ⟨19, _⟩ => ⟨S16384x13, .f32⟩
  | .hbm, ⟨20, _⟩ => ⟨S16384x26x1, .i32⟩
  | .hbm, ⟨21, _⟩ => ⟨S16384x26, .i32⟩
  | .hbm, ⟨22, _⟩ => ⟨S16384x13, .f32⟩
  | .hbm, ⟨23, _⟩ => ⟨S16384x26, .f32⟩
  | .hbm, ⟨24, _⟩ => ⟨S26, .i32⟩
  | .hbm, ⟨25, _⟩ => ⟨S1x26, .i32⟩
  | .hbm, ⟨26, _⟩ => ⟨S_, .i32⟩
  | .hbm, ⟨27, _⟩ => ⟨S1x26, .i32⟩
  | .hbm, ⟨28, _⟩ => ⟨S1x26, .i1⟩
  | .hbm, ⟨29, _⟩ => ⟨S_, .i32⟩
  | .hbm, ⟨30, _⟩ => ⟨S1x26, .i32⟩
  | .hbm, ⟨31, _⟩ => ⟨S1x26, .i32⟩
  | .hbm, ⟨32, _⟩ => ⟨S1x26, .i32⟩
  | .hbm, ⟨33, _⟩ => ⟨S_, .i32⟩
  | .hbm, ⟨34, _⟩ => ⟨S16384x26, .i32⟩
  | .hbm, ⟨35, _⟩ => ⟨S16384x26, .i1⟩
  | .hbm, ⟨36, _⟩ => ⟨S_, .i32⟩
  | .hbm, ⟨37, _⟩ => ⟨S16384x26, .i32⟩
  | .hbm, ⟨38, _⟩ => ⟨S16384x26, .i32⟩
  | .hbm, ⟨39, _⟩ => ⟨S16384x26, .i32⟩
  | .hbm, ⟨40, _⟩ => ⟨S16384x26, .i32⟩
  | .hbm, ⟨41, _⟩ => ⟨S16384x26x1, .i32⟩
  | .hbm, ⟨42, _⟩ => ⟨S16384x26x1, .i32⟩
  | .hbm, ⟨43, _⟩ => ⟨S16384x26x2, .i32⟩
  | .hbm, ⟨44, _⟩ => ⟨S16384x26x16, .f32⟩
  | .hbm, ⟨45, _⟩ => ⟨S_, .i32⟩
  | .hbm, ⟨46, _⟩ => ⟨S1x26, .i32⟩
  | .hbm, ⟨47, _⟩ => ⟨S1x26, .i1⟩
  | .hbm, ⟨48, _⟩ => ⟨S_, .i32⟩
  | .hbm, ⟨49, _⟩ => ⟨S1x26, .i32⟩
  | .hbm, ⟨50, _⟩ => ⟨S1x26, .i32⟩
  | .hbm, ⟨51, _⟩ => ⟨S1x26, .i32⟩
  | .hbm, ⟨52, _⟩ => ⟨S_, .i32⟩
  | .hbm, ⟨53, _⟩ => ⟨S16384x26, .i32⟩
  | .hbm, ⟨54, _⟩ => ⟨S16384x26, .i1⟩
  | .hbm, ⟨55, _⟩ => ⟨S_, .i32⟩
  | .hbm, ⟨56, _⟩ => ⟨S16384x26, .i32⟩
  | .hbm, ⟨57, _⟩ => ⟨S16384x26, .i32⟩
  | .hbm, ⟨58, _⟩ => ⟨S16384x26, .i32⟩
  | .hbm, ⟨59, _⟩ => ⟨S16384x26, .i32⟩
  | .hbm, ⟨60, _⟩ => ⟨S16384x26x1, .i32⟩
  | .hbm, ⟨61, _⟩ => ⟨S16384x26x1, .i32⟩
  | .hbm, ⟨62, _⟩ => ⟨S16384x26x2, .i32⟩
  | .hbm, ⟨63, _⟩ => ⟨S16384x26x16, .f32⟩
  | .hbm, ⟨64, _⟩ => ⟨S16384, .f32⟩
  | .local _ .vmem, ⟨0, _⟩ => ⟨S1024x13, .f32⟩
  | .local _ .vmem, ⟨1, _⟩ => ⟨S1024x13, .f32⟩
  | .local _ .vmem, ⟨2, _⟩ => ⟨S1024x13, .f32⟩
  | .local _ .vmem, ⟨3, _⟩ => ⟨S1024x13, .f32⟩
  | .local _ .vmem, ⟨4, _⟩ => ⟨S1024x26, .f32⟩
  | .local _ .vmem, ⟨5, _⟩ => ⟨S1024x26, .f32⟩
  | .local _ .vmem, ⟨6, _⟩ => ⟨S1024x26x16, .f32⟩
  | .local _ .vmem, ⟨7, _⟩ => ⟨S1024x26x16, .f32⟩
  | .local _ .vmem, ⟨8, _⟩ => ⟨S1024x26x16, .f32⟩
  | .local _ .vmem, ⟨9, _⟩ => ⟨S1024x26x16, .f32⟩
  | .local _ .vmem, ⟨10, _⟩ => ⟨S13x16, .f32⟩
  | .local _ .vmem, ⟨11, _⟩ => ⟨S13x16, .f32⟩
  | .local _ .vmem, ⟨12, _⟩ => ⟨S13x16, .f32⟩
  | .local _ .vmem, ⟨13, _⟩ => ⟨S13x16, .f32⟩
  | .local _ .vmem, ⟨14, _⟩ => ⟨S624x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S1024, .f32⟩
  | .local _ .vmem, ⟨23, _⟩ => ⟨S1024, .f32⟩
  | .local _ .vmem, ⟨24, _⟩ => ⟨S1024, .f32⟩
  | .local _ .vmem, ⟨25, _⟩ => ⟨S1024, .f32⟩
  | _, _ => ⟨S16384x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  ![arg0.toNat]

def cc0_transform_18 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x26 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x26x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x26x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S13x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S13x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S13x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S624x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S16384x39x1_S16384x13x1_0_0_0 : S16384x39x1.Slices ![0, 0, 0] S16384x13x1
  shapeCasts_S16384x13x1_S16384x13 : S16384x13x1.ShapeCasts S16384x13
  slices_S16384x39x1_S16384x26x1_0_13_0 : S16384x39x1.Slices ![0, 13, 0] S16384x26x1
  shapeCasts_S16384x26x1_S16384x26 : S16384x26x1.ShapeCasts S16384x26
  slices_S16384x39_S16384x13_0_0 : S16384x39.Slices ![0, 0] S16384x13
  slices_S16384x39_S16384x26_0_13 : S16384x39.Slices ![0, 13] S16384x26
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  inb_S1024x13_S1024x13_0_0 : ∀ a, (![0, 0] : Fin 2 → Nat) a + S1024x13.size a ≤ S1024x13.size a
  h_S1024x13 : 0 < S1024x13.numel
  shapeCasts_S1024x13_S1024x13 : S1024x13.ShapeCasts S1024x13
  inb_S1024x26_S1024x26_0_0 : ∀ a, (![0, 0] : Fin 2 → Nat) a + S1024x26.size a ≤ S1024x26.size a
  h_S1024x26 : 0 < S1024x26.numel
  shapeCasts_S1024x26_S1024x26 : S1024x26.ShapeCasts S1024x26
  inb_S1024x26x16_S1024x26x16_0_0_0 : ∀ a, (![0, 0, 0] : Fin 3 → Nat) a + S1024x26x16.size a ≤ S1024x26x16.size a
  h_S1024x26x16 : 0 < S1024x26x16.numel
  shapeCasts_S1024x26x16_S1024x26x16 : S1024x26x16.ShapeCasts S1024x26x16
  inb_S13x16_S13x16_0_0 : ∀ a, (![0, 0] : Fin 2 → Nat) a + S13x16.size a ≤ S13x16.size a
  h_S13x16 : 0 < S13x16.numel
  shapeCasts_S1024x13_S1024x13x1 : S1024x13.ShapeCasts S1024x13x1
  shapeCasts_S13x16_S1x13x16 : S13x16.ShapeCasts S1x13x16
  broadcasts_S1024x13x1_S1024x13x16 : S1024x13x1.Broadcasts S1024x13x16
  broadcasts_S1x13x16_S1024x13x16 : S1x13x16.Broadcasts S1024x13x16
  shapeCasts_S1024x26_S1024x26x1 : S1024x26.ShapeCasts S1024x26x1
  broadcasts_S1024x26x1_S1024x26x16 : S1024x26x1.Broadcasts S1024x26x16
  shapeCasts_S1024x13x16_S1024x208 : S1024x13x16.ShapeCasts S1024x208
  reduces_S1024x208_S1024 : S1024x208.Reduces [1] S1024
  shapeCasts_S1024x26x16_S1024x416 : S1024x26x16.ShapeCasts S1024x416
  reduces_S1024x416_S1024 : S1024x416.Reduces [1] S1024
  reduces_S1024x13x16_S1024x16 : S1024x13x16.Reduces [1] S1024x16
  reduces_S1024x26x16_S1024x16 : S1024x26x16.Reduces [1] S1024x16
  reduces_S1024x16_S1024 : S1024x16.Reduces [1] S1024
  concatenates_S1024x208_S1024x416_S1024x624_d1 : Shape.Concatenates [S1024x208, S1024x416] S1024x624 1
  inb_S624x512_S624x512_0_0 : ∀ a, (![0, 0] : Fin 2 → Nat) a + S624x512.size a ≤ S624x512.size a
  h_S624x512 : 0 < S624x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  inb_S1024_S1024_0 : ∀ a, (![0] : Fin 1 → Nat) a + S1024.size a ≤ S1024.size a
  h_S1024 : 0 < S1024.numel
  gather_S26x100000x16_S16384x26x2_S16384x26x16_2_01_n_n_01_2_1116_wf : GatherDims.WF S26x100000x16 S16384x26x2 S16384x26x16 [2] [0, 1] [] [0, 1] [] 2 ![1, 1, 16]
  dot_S1024x624_S624x512_S1024x512_1_0_0_1_n_n_wf : DotDims.WF S1024x624 S624x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S16384x13.size a
  hwx0_0 : ∀ i : grid0.Coords, EltTy.bits .f32 = 32 ∨ (Rect.block (s := S16384x13) S1024x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x13.size a ≤ S16384x13.size a
  hwx0_1 : ∀ i : grid0.Coords, EltTy.bits .f32 = 32 ∨ (Rect.block (s := S16384x13) S1024x13.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x26.size a ≤ S16384x26.size a
  hwx0_2 : ∀ i : grid0.Coords, EltTy.bits .f32 = 32 ∨ (Rect.block (s := S16384x26) S1024x26.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x26x16.size a ≤ S16384x26x16.size a
  hwx0_3 : ∀ i : grid0.Coords, EltTy.bits .f32 = 32 ∨ (Rect.block (s := S16384x26x16) S1024x26x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x26x16.size a ≤ S16384x26x16.size a
  hwx0_4 : ∀ i : grid0.Coords, EltTy.bits .f32 = 32 ∨ (Rect.block (s := S16384x26x16) S1024x26x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S13x16.size a ≤ S13x16.size a
  hwx0_5 : ∀ i : grid0.Coords, EltTy.bits .f32 = 32 ∨ (Rect.block (s := S13x16) S13x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x16.size a ≤ S13x16.size a
  hwx0_6 : ∀ i : grid0.Coords, EltTy.bits .f32 = 32 ∨ (Rect.block (s := S13x16) S13x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S13x16.size a ≤ S13x16.size a
  hwx0_7 : ∀ i : grid0.Coords, EltTy.bits .f32 = 32 ∨ (Rect.block (s := S13x16) S13x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S13x16.size a ≤ S13x16.size a
  hwx0_8 : ∀ i : grid0.Coords, EltTy.bits .f32 = 32 ∨ (Rect.block (s := S13x16) S13x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S624x512.size a ≤ S624x512.size a
  hwx0_9 : ∀ i : grid0.Coords, EltTy.bits .f32 = 32 ∨ (Rect.block (s := S624x512) S624x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S512x256.size a
  hwx0_13 : ∀ i : grid0.Coords, EltTy.bits .f32 = 32 ∨ (Rect.block (s := S512x256) S512x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024.size a ≤ S16384.size a
  hwx0_17 : ∀ i : grid0.Coords, EltTy.bits .f32 = 32 ∨ (Rect.block (s := S16384) S1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024.size a ≤ S16384.size a
  hwx0_18 : ∀ i : grid0.Coords, EltTy.bits .f32 = 32 ∨ (Rect.block (s := S16384) S1024.size (cc0_transform_18 i) (hinb0_18 i)).WholeWords (EltTy.packing .f32)

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S1024x624_S624x512_S1024x512_1_0_0_1_n_n : DotDims S1024x624 S624x512 S1024x512 where
  lhsContracting := [1]
  rhsContracting := [0]
  lhsNonContracting := [0]
  rhsNonContracting := [1]
  lhsBatch := []
  rhsBatch := []
  wf := dot_S1024x624_S624x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v2) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x26.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x26x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1024x26x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S13x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S13x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S13x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S13x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S624x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S512x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S1024.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v39) S1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S16384x39x1 : Shape := ⟨3, ![16384, 39, 1]⟩
abbrev S16384x39 : Shape := ⟨2, ![16384, 39]⟩
abbrev S13x16 : Shape := ⟨2, ![13, 16]⟩
abbrev S26x100000x16 : Shape := ⟨3, ![26, 100000, 16]⟩
abbrev S624x512 : Shape := ⟨2, ![624, 512]⟩
abbrev S512 : Shape := ⟨1, ![512]⟩
abbrev S512x256 : Shape := ⟨2, ![512, 256]⟩
abbrev S256 : Shape := ⟨1, ![256]⟩
abbrev S16384 : Shape := ⟨1, ![16384]⟩
abbrev S16384x13x1 : Shape := ⟨3, ![16384, 13, 1]⟩
abbrev S16384x13 : Shape := ⟨2, ![16384, 13]⟩
abbrev S16384x26x1 : Shape := ⟨3, ![16384, 26, 1]⟩
abbrev S16384x26 : Shape := ⟨2, ![16384, 26]⟩
abbrev S26 : Shape := ⟨1, ![26]⟩
abbrev S1x26 : Shape := ⟨2, ![1, 26]⟩
abbrev S1x13x16 : Shape := ⟨3, ![1, 13, 16]⟩
abbrev S16384x13x16 : Shape := ⟨3, ![16384, 13, 16]⟩
abbrev S_ : Shape := ⟨0, ![]⟩
abbrev S16384x26x2 : Shape := ⟨3, ![16384, 26, 2]⟩
abbrev S16384x26x16 : Shape := ⟨3, ![16384, 26, 16]⟩
abbrev S16384x208 : Shape := ⟨2, ![16384, 208]⟩
abbrev S16384x416 : Shape := ⟨2, ![16384, 416]⟩
abbrev S16384x624 : Shape := ⟨2, ![16384, 624]⟩
abbrev S16384x16 : Shape := ⟨2, ![16384, 16]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩

abbrev nBuf : Space → Nat
  | .hbm => 147
  | .vmem => 0
  | .smem => 0
  | _ => 0

abbrev hbmTy0_0 (i : Nat) : BufTy := match i % 128 with
  | 0 => ⟨S16384x39x1, .i32⟩
  | 1 => ⟨S16384x39, .f32⟩
  | 2 => ⟨S13x16, .f32⟩
  | 3 => ⟨S13x16, .f32⟩
  | 4 => ⟨S26x100000x16, .f32⟩
  | 5 => ⟨S13x16, .f32⟩
  | 6 => ⟨S13x16, .f32⟩
  | 7 => ⟨S26x100000x16, .f32⟩
  | 8 => ⟨S624x512, .f32⟩
  | 9 => ⟨S512, .f32⟩
  | 10 => ⟨S512, .f32⟩
  | 11 => ⟨S512, .f32⟩
  | 12 => ⟨S512x256, .f32⟩
  | 13 => ⟨S256, .f32⟩
  | 14 => ⟨S256, .f32⟩
  | 15 => ⟨S256, .f32⟩
  | 16 => ⟨S16384, .f32⟩
  | 17 => ⟨S16384x13x1, .i32⟩
  | 18 => ⟨S16384x13, .i32⟩
  | 19 => ⟨S16384x13, .f32⟩
  | 20 => ⟨S16384x26x1, .i32⟩
  | 21 => ⟨S16384x26, .i32⟩
  | 22 => ⟨S16384x13, .f32⟩
  | 23 => ⟨S16384x26, .f32⟩
  | 24 => ⟨S26, .i32⟩
  | 25 => ⟨S1x26, .i32⟩
  | 26 => ⟨S16384x13x1, .f32⟩
  | 27 => ⟨S1x13x16, .f32⟩
  | 28 => ⟨S16384x13x16, .f32⟩
  | 29 => ⟨S16384x13x16, .f32⟩
  | 30 => ⟨S16384x13x16, .f32⟩
  | 31 => ⟨S1x13x16, .f32⟩
  | 32 => ⟨S16384x13x16, .f32⟩
  | 33 => ⟨S16384x13x16, .f32⟩
  | 34 => ⟨S16384x13x1, .f32⟩
  | 35 => ⟨S16384x13x16, .f32⟩
  | 36 => ⟨S16384x13x16, .f32⟩
  | 37 => ⟨S_, .i32⟩
  | 38 => ⟨S1x26, .i32⟩
  | 39 => ⟨S1x26, .i1⟩
  | 40 => ⟨S_, .i32⟩
  | 41 => ⟨S1x26, .i32⟩
  | 42 => ⟨S1x26, .i32⟩
  | 43 => ⟨S1x26, .i32⟩
  | 44 => ⟨S_, .i32⟩
  | 45 => ⟨S16384x26, .i32⟩
  | 46 => ⟨S16384x26, .i1⟩
  | 47 => ⟨S_, .i32⟩
  | 48 => ⟨S16384x26, .i32⟩
  | 49 => ⟨S16384x26, .i32⟩
  | 50 => ⟨S16384x26, .i32⟩
  | 51 => ⟨S16384x26, .i32⟩
  | 52 => ⟨S16384x26x1, .i32⟩
  | 53 => ⟨S16384x26x1, .i32⟩
  | 54 => ⟨S16384x26x2, .i32⟩
  | 55 => ⟨S16384x26x16, .f32⟩
  | 56 => ⟨S16384x26x1, .f32⟩
  | 57 => ⟨S16384x26x16, .f32⟩
  | 58 => ⟨S16384x26x16, .f32⟩
  | 59 => ⟨S16384x208, .f32⟩
  | 60 => ⟨S16384x416, .f32⟩
  | 61 => ⟨S16384x624, .f32⟩
  | 62 => ⟨S16384x13x1, .f32⟩
  | 63 => ⟨S1x13x16, .f32⟩
  | 64 => ⟨S16384x13x16, .f32⟩
  | 65 => ⟨S16384x13x16, .f32⟩
  | 66 => ⟨S16384x13x16, .f32⟩
  | 67 => ⟨S1x13x16, .f32⟩
  | 68 => ⟨S16384x13x16, .f32⟩
  | 69 => ⟨S16384x13x16, .f32⟩
  | 70 => ⟨S_, .i32⟩
  | 71 => ⟨S1x26, .i32⟩
  | 72 => ⟨S1x26, .i1⟩
  | 73 => ⟨S_, .i32⟩
  | 74 => ⟨S1x26, .i32⟩
  | 75 => ⟨S1x26, .i32⟩
  | 76 => ⟨S1x26, .i32⟩
  | 77 => ⟨S_, .i32⟩
  | 78 => ⟨S16384x26, .i32⟩
  | 79 => ⟨S16384x26, .i1⟩
  | 80 => ⟨S_, .i32⟩
  | 81 => ⟨S16384x26, .i32⟩
  | 82 => ⟨S16384x26, .i32⟩
  | 83 => ⟨S16384x26, .i32⟩
  | 84 => ⟨S16384x26, .i32⟩
  | 85 => ⟨S16384x26x1, .i32⟩
  | 86 => ⟨S16384x26x1, .i32⟩
  | 87 => ⟨S16384x26x2, .i32⟩
  | 88 => ⟨S16384x26x16, .f32⟩
  | 89 => ⟨S16384x26x1, .f32⟩
  | 90 => ⟨S16384x26x16, .f32⟩
  | 91 => ⟨S16384x26x16, .f32⟩
  | 92 => ⟨S_, .f32⟩
  | 93 => ⟨S16384x16, .f32⟩
  | 94 => ⟨S_, .f32⟩
  | 95 => ⟨S16384x16, .f32⟩
  | 96 => ⟨S16384x16, .f32⟩
  | 97 => ⟨S16384x13x16, .f32⟩
  | 98 => ⟨S_, .f32⟩
  | 99 => ⟨S16384x16, .f32⟩
  | 100 => ⟨S16384x26x16, .f32⟩
  | 101 => ⟨S_, .f32⟩
  | 102 => ⟨S16384x16, .f32⟩
  | 103 => ⟨S16384x16, .f32⟩
  | 104 => ⟨S16384x16, .f32⟩
  | 105 => ⟨S16384x16, .f32⟩
  | 106 => ⟨S_, .f32⟩
  | 107 => ⟨S16384x16, .f32⟩
  | 108 => ⟨S16384x16, .f32⟩
  | 109 => ⟨S16384x208, .f32⟩
  | 110 => ⟨S16384x416, .f32⟩
  | 111 => ⟨S16384x624, .f32⟩
  | 112 => ⟨S16384x512, .f32⟩
  | 113 => ⟨S1x512, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S1x512, .f32⟩
  | 120 => ⟨S16384x512, .f32⟩
  | 121 => ⟨S16384x512, .f32⟩
  | 122 => ⟨S1x512, .f32⟩
  | 123 => ⟨S16384x512, .f32⟩
  | 124 => ⟨S16384x512, .f32⟩
  | 125 => ⟨S16384x256, .f32⟩
  | 126 => ⟨S1x256, .f32⟩
  | 127 => ⟨S16384x256, .f32⟩
  | _ => ⟨S16384x39x1, .i32⟩

abbrev hbmTy0_1 (i : Nat) : BufTy := match i % 128 with
  | 0 => ⟨S16384x256, .f32⟩
  | 1 => ⟨S_, .f32⟩
  | 2 => ⟨S16384x256, .f32⟩
  | 3 => ⟨S16384x256, .f32⟩
  | 4 => ⟨S1x256, .f32⟩
  | 5 => ⟨S16384x256, .f32⟩
  | 6 => ⟨S16384x256, .f32⟩
  | 7 => ⟨S1x256, .f32⟩
  | 8 => ⟨S16384x256, .f32⟩
  | 9 => ⟨S16384x256, .f32⟩
  | 10 => ⟨S_, .f32⟩
  | 11 => ⟨S16384, .f32⟩
  | 12 => ⟨S_, .f32⟩
  | 13 => ⟨S16384, .f32⟩
  | 14 => ⟨S16384, .f32⟩
  | 15 => ⟨S_, .f32⟩
  | 16 => ⟨S16384, .f32⟩
  | 17 => ⟨S16384, .f32⟩
  | 18 => ⟨S16384, .f32⟩
  | _ => ⟨S16384x39x1, .i32⟩

abbrev hbmTy (i : Nat) : BufTy := match i / 128 with
  | 0 => hbmTy0_0 i
  | 1 => hbmTy0_1 i
  | _ => ⟨S16384x39x1, .i32⟩

abbrev bufTy : (tb : Table) → Fin (tcTables nBuf tb) → BufTy
  | .hbm, ⟨i, _⟩ => hbmTy i
  | _, _ => ⟨S16384x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_3 : Ref sig .tc := ⟨.hbm, 70, rfl⟩
abbrev main_v49 : Ref sig .tc := ⟨.hbm, 71, rfl⟩
abbrev main_v50 : Ref sig .tc := ⟨.hbm, 72, rfl⟩
abbrev main_c_4 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_5 : Ref sig .tc := ⟨.hbm, 77, rfl⟩
abbrev main_v54 : Ref sig .tc := ⟨.hbm, 78, rfl⟩
abbrev main_v55 : Ref sig .tc := ⟨.hbm, 79, rfl⟩
abbrev main_c_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_cst_9 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_10 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_11 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_12 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_13 : Ref sig .tc := ⟨.hbm, 138, rfl⟩
abbrev main_v106 : Ref sig .tc := ⟨.hbm, 139, rfl⟩
abbrev main_cst_14 : Ref sig .tc := ⟨.hbm, 140, rfl⟩
abbrev main_v107 : Ref sig .tc := ⟨.hbm, 141, rfl⟩
abbrev main_v108 : Ref sig .tc := ⟨.hbm, 142, rfl⟩
abbrev main_cst_15 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]

class Facts₀ : Prop where
  slices_S16384x39x1_S16384x13x1_0_0_0 : S16384x39x1.Slices ![0, 0, 0] S16384x13x1
  shapeCasts_S16384x13x1_S16384x13 : S16384x13x1.ShapeCasts S16384x13
  slices_S16384x39x1_S16384x26x1_0_13_0 : S16384x39x1.Slices ![0, 13, 0] S16384x26x1
  shapeCasts_S16384x26x1_S16384x26 : S16384x26x1.ShapeCasts S16384x26
  slices_S16384x39_S16384x13_0_0 : S16384x39.Slices ![0, 0] S16384x13
  slices_S16384x39_S16384x26_0_13 : S16384x39.Slices ![0, 13] S16384x26
  bcast_S26_S1x26_1 : S26.BroadcastsInDim S1x26 (![1] : Fin 1 → Fin S1x26.rank)
  bcast_S16384x13_S16384x13x1_0_1 : S16384x13.BroadcastsInDim S16384x13x1 (![0, 1] : Fin 2 → Fin S16384x13x1.rank)
  bcast_S13x16_S1x13x16_1_2 : S13x16.BroadcastsInDim S1x13x16 (![1, 2] : Fin 2 → Fin S1x13x16.rank)
  bcast_S16384x13x1_S16384x13x16_0_1_2 : S16384x13x1.BroadcastsInDim S16384x13x16 (![0, 1, 2] : Fin 3 → Fin S16384x13x16.rank)
  bcast_S1x13x16_S16384x13x16_0_1_2 : S1x13x16.BroadcastsInDim S16384x13x16 (![0, 1, 2] : Fin 3 → Fin S16384x13x16.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S16384x26x1_S16384x26x16_0_1_2 : S16384x26x1.BroadcastsInDim S16384x26x16 (![0, 1, 2] : Fin 3 → Fin S16384x26x16.rank)
  shapeCasts_S16384x13x16_S16384x208 : S16384x13x16.ShapeCasts S16384x208
  shapeCasts_S16384x26x16_S16384x416 : S16384x26x16.ShapeCasts S16384x416
  concatenates_S16384x208_S16384x416_S16384x624_d1 : Shape.Concatenates [S16384x208, S16384x416] S16384x624 1
  reducesTo_S16384x13x16_S16384x16_d1 : S16384x13x16.ReducesTo [1] S16384x16
  h_S_ : 0 < S_.numel
  reducesTo_S16384x26x16_S16384x16_d1 : S16384x26x16.ReducesTo [1] S16384x16
  bcast_S_S16384x16 : S_.BroadcastsInDim S16384x16 (![] : Fin 0 → Fin S16384x16.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  reducesTo_S16384x624_S16384_d1 : S16384x624.ReducesTo [1] S16384
  reducesTo_S16384x16_S16384_d1 : S16384x16.ReducesTo [1] S16384
  reducesTo_S16384x256_S16384_d1 : S16384x256.ReducesTo [1] S16384
  gather_S26x100000x16_S16384x26x2_S16384x26x16_2_01_n_n_01_2_1116_wf : GatherDims.WF S26x100000x16 S16384x26x2 S16384x26x16 [2] [0, 1] [] [0, 1] [] 2 ![1, 1, 16]
  dot_S16384x624_S624x512_S16384x512_1_0_0_1_n_n_wf : DotDims.WF S16384x624 S624x512 S16384x512 [1] [0] [0] [1] [] []
  dot_S16384x512_S512x256_S16384x256_1_0_0_1_n_n_wf : DotDims.WF S16384x512 S512x256 S16384x256 [1] [0] [0] [1] [] []

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x624_S624x512_S16384x512_1_0_0_1_n_n : DotDims S16384x624 S624x512 S16384x512 where
  lhsContracting := [1]
  rhsContracting := [0]
  lhsNonContracting := [0]
  rhsNonContracting := [1]
  lhsBatch := []
  rhsBatch := []
  wf := dot_S16384x624_S624x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.FmSpec.lean ====
/-
  The mathematics both programs compute, one batch row at a time.

  A row of the batch has 13 dense fields (a scalar each, `xi f`, with a weight `xvd f`) and 26 sparse fields (an
  embedding row of 16 numbers each, already looked up: `e1 f`, `e2 f`, with a weight `xvs f`).  Three terms are
  summed with the row's bias:
  * the FIRST-ORDER term: every entry of the 13 × 16 block `(xi f · w1 f e + b1 f e) · xvd f` and of the 26 × 16 block
    `e1 f e · xvs f`, each block summed in its flattened order (index `k` of the flat block is field `k / 16`,
    component `k % 16`);
  * the SECOND-ORDER (factorization-machine) term: with `secLin f e = xi f · w2 f e + b2 f e` and
    `secEmb f e = e2 f e · xvs f`, per component `e` the square of the sum over all 39 fields minus the sum of the
    squares, halved, then summed over the 16 components;
  * the DEEP term: the 624 numbers `secLin` (flattened, 208) followed by `secEmb` (flattened, 416) go through two
    affine layers, each followed by the same scale `cInv`, a gain and an offset, and the 256 outputs are summed.
  All of it over the extended reals: only sums and products in a fixed association, so no finiteness is needed, and the
  one law used between the two programs is that a sum over a concatenation is the sum of the two parts' sums.
-/
import Idealize.ShloMosaic.PureOps.Ideal
import Idealize.ShloMosaic.Lib.ValueIdx
import Mathlib.Algebra.BigOperators.Fin

noncomputable section

namespace Cert.FmRow

open Idealize.ShloMosaic

/-- The batch-norm scale both programs carry as the f32 word of `1 / sqrt (1 + 1e-5)`; the same word on both sides,
    so its value is never opened. -/
abbrev cInv : EReal := Ideal.ofBits .f32 0x3F7FFFAC#32
/-- The word of one half. -/
abbrev cHalf : EReal := Ideal.ofBits .f32 0x3F000000#32

/-- Field and component of position `k` of a flattened 13 × 16 block. -/
def hi13 (k : Fin 208) : Fin 13 := ⟨k.val / 16, by have := k.isLt; omega⟩
def lo13 (k : Fin 208) : Fin 16 := ⟨k.val % 16, by omega⟩
/-- Field and component of position `k` of a flattened 26 × 16 block. -/
def hi26 (k : Fin 416) : Fin 26 := ⟨k.val / 16, by have := k.isLt; omega⟩
def lo26 (k : Fin 416) : Fin 16 := ⟨k.val % 16, by omega⟩

section Row

variable (xi xvd : Fin 13 → EReal) (xvs : Fin 26 → EReal) (e1 e2 : Fin 26 → Fin 16 → EReal)
  (w1 b1 w2 b2 : Fin 13 → Fin 16 → EReal) (lw1 : Fin 624 → Fin 512 → EReal) (lb1 g1 be1 : Fin 512 → EReal)
  (lw2 : Fin 512 → Fin 256 → EReal) (lb2 g2 be2 : Fin 256 → EReal) (bias : EReal)

def firstLin (f : Fin 13) (e : Fin 16) : EReal := (xi f * w1 f e + b1 f e) * xvd f
def firstEmb (f : Fin 26) (e : Fin 16) : EReal := e1 f e * xvs f
/-- The first-order term: the two flattened blocks' sums. -/
def firstSum : EReal :=
  (∑ k : Fin 208, firstLin xi xvd w1 b1 (hi13 k) (lo13 k)) + (∑ k : Fin 416, firstEmb xvs e1 (hi26 k) (lo26 k))

def secLin (f : Fin 13) (e : Fin 16) : EReal := xi f * w2 f e + b2 f e
def secEmb (f : Fin 26) (e : Fin 16) : EReal := e2 f e * xvs f
/-- Per component, the sum over all fields … -/
def sumEmb (e : Fin 16) : EReal := (∑ f : Fin 13, secLin xi w2 b2 f e) + (∑ f : Fin 26, secEmb xvs e2 f e)
/-- … and the sum of the squares. -/
def sumSq (e : Fin 16) : EReal :=
  (∑ f : Fin 13, secLin xi w2 b2 f e * secLin xi w2 b2 f e) + (∑ f : Fin 26, secEmb xvs e2 f e * secEmb xvs e2 f e)
/-- The second-order term. -/
def secondSum : EReal :=
  ∑ e : Fin 16, (sumEmb xi xvs e2 w2 b2 e * sumEmb xi xvs e2 w2 b2 e - sumSq xi xvs e2 w2 b2 e) * cHalf

/-- The deep part's input: the flattened `secLin` block, then the flattened `secEmb` block. -/
def deepIn (k : Fin 624) : EReal :=
  if h : k.val < 208 then secLin xi w2 b2 (hi13 ⟨k.val, h⟩) (lo13 ⟨k.val, h⟩)
  else secEmb xvs e2 (hi26 ⟨k.val - 208, by have := k.isLt; omega⟩) (lo26 ⟨k.val - 208, by have := k.isLt; omega⟩)
def hid1 (j : Fin 512) : EReal :=
  ((∑ k : Fin 624, deepIn xi xvs e2 w2 b2 k * lw1 k j) + lb1 j) * cInv * g1 j + be1 j
def hid2 (j : Fin 256) : EReal :=
  ((∑ k : Fin 512, hid1 xi xvs e2 w2 b2 lw1 lb1 g1 be1 k * lw2 k j) + lb2 j) * cInv * g2 j + be2 j
/-- The deep term. -/
def deepSum : EReal := ∑ j : Fin 256, hid2 xi xvs e2 w2 b2 lw1 lb1 g1 be1 lw2 lb2 g2 be2 j

/-- The row's result. -/
def row : EReal :=
  firstSum xi xvd xvs e1 w1 b1 + secondSum xi xvs e2 w2 b2
    + deepSum xi xvs e2 w2 b2 lw1 lb1 g1 be1 lw2 lb2 g2 be2 + bias

end Row

open Idealize.ShloMosaic.ValueIdx in
/-- THE WHOLE RESULT: for a batch of `n` rows, entry `r` of the result is `row` of the batch's row-`r` slices and the
    shared tables (the arrays written over their literal shapes; `XI`, `XVD` the dense scalars and their weights, `XVS`
    the sparse weights, `E1`, `E2` the looked-up embedding rows). -/
def arr {n : ℕ} (XI XVD : (⟨2, ![n, 13]⟩ : Shape).Idx → EReal) (XVS : (⟨2, ![n, 26]⟩ : Shape).Idx → EReal)
    (E1 E2 : (⟨3, ![n, 26, 16]⟩ : Shape).Idx → EReal) (W1 B1 W2 B2 : (⟨2, ![13, 16]⟩ : Shape).Idx → EReal)
    (LW1 : (⟨2, ![624, 512]⟩ : Shape).Idx → EReal) (LB1 G1 BE1 : (⟨1, ![512]⟩ : Shape).Idx → EReal)
    (LW2 : (⟨2, ![512, 256]⟩ : Shape).Idx → EReal) (LB2 G2 BE2 : (⟨1, ![256]⟩ : Shape).Idx → EReal)
    (BIAS : (⟨1, ![n]⟩ : Shape).Idx → EReal) : (⟨1, ![n]⟩ : Shape).Idx → EReal := fun i =>
  row (fun f => XI (ix2 (i 0) f)) (fun f => XVD (ix2 (i 0) f)) (fun f => XVS (ix2 (i 0) f))
    (fun f e => E1 (ix3 (i 0) f e)) (fun f e => E2 (ix3 (i 0) f e))
    (fun f e => W1 (ix2 f e)) (fun f e => B1 (ix2 f e)) (fun f e => W2 (ix2 f e)) (fun f e => B2 (ix2 f e))
    (fun k j => LW1 (ix2 k j)) (fun j => LB1 (ix1 j)) (fun j => G1 (ix1 j)) (fun j => BE1 (ix1 j))
    (fun k j => LW2 (ix2 k j)) (fun j => LB2 (ix1 j)) (fun j => G2 (ix1 j)) (fun j => BE2 (ix1 j)) (BIAS i)

/-- THE LAW between the two programs: a sum over 624 positions of a family that is `a` on the first 208 and `b` on the
    other 416 is the sum of `a` plus the sum of `b` (addition on the extended reals is commutative and
    associative, which is all a finite sum's splitting needs). -/
theorem sum_concat (a : Fin 208 → EReal) (b : Fin 416 → EReal) :
    (∑ k : Fin 624, if h : k.val < 208 then a ⟨k.val, h⟩ else b ⟨k.val - 208, by have := k.isLt; omega⟩)
      = (∑ k : Fin 208, a k) + (∑ k : Fin 416, b k) := by
  have := Fin.sum_univ_add (M := EReal) (a := 208) (b := 416)
    (fun k : Fin (208 + 416) => if h : k.val < 208 then a ⟨k.val, h⟩ else b ⟨k.val - 208, by have := k.isLt; omega⟩)
  refine this.trans ?_
  have e1 : ∀ k : Fin 208, (if h : (Fin.castAdd 416 k).val < 208 then a ⟨(Fin.castAdd 416 k).val, h⟩
      else b ⟨(Fin.castAdd 416 k).val - 208, by have := (Fin.castAdd 416 k).isLt; omega⟩) = a k := fun k => by
    have hk : (Fin.castAdd 416 k).val < 208 := k.isLt
    rw [dif_pos hk]
    exact congrArg a (Fin.ext rfl)
  have e2 : ∀ k : Fin 416, (if h : (Fin.natAdd 208 k).val < 208 then a ⟨(Fin.natAdd 208 k).val, h⟩
      else b ⟨(Fin.natAdd 208 k).val - 208, by have := (Fin.natAdd 208 k).isLt; omega⟩) = b k := fun k => by
    have hk : ¬ (Fin.natAdd 208 k).val < 208 := by simp [Fin.natAdd]
    rw [dif_neg hk]
    exact congrArg b (Fin.ext (by simp [Fin.natAdd]))
  exact congrArg₂ (· + ·) (Finset.sum_congr rfl fun k _ => e1 k) (Finset.sum_congr rfl fun k _ => e2 k)

end Cert.FmRow

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.KernelRow.lean ====
/-
  The kernel's body, one block row at a time: what the body stores at row `y` of its 1024-row block is the row function
  `FmRow.row` of the block's row-`y` slices and the whole tables.
-/
import proofs.«426230_j27169963114981_1_alg».proof.Proof.Gen.KernelIdeal.Skeleton
import proofs.«426230_j27169963114981_1_alg».proof.Proof.FmSpec
import proofs.«426230_j27169963114981_1_alg».proof.Proof.LibRowLayout
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx Cert.FmRow Cert.RowLayout

/-- The second-order dense block at `(y, f, e)`: `xi · w2 + b2`. -/
theorem secLin_apply (x0 : FVec Ideal S1024x13 .f32) (x7 x8 : FVec Ideal S13x16 .f32) (y : Fin 1024) (f : Fin 13) (e : Fin 16) :
    k0_pay8 (F := Ideal) x8 (k0_pay6 x0) (k0_pay7 x7) (ix3 y f e)
      = secLin (fun f => x0 (ix2 y f)) (fun f e => x7 (ix2 f e)) (fun f e => x8 (ix2 f e)) f e := by
  unfold k0_pay8 k0_pay6 k0_pay7 k0_pay2 secLin
  simp only [addf_apply, mulf_apply, shapeCast_self]
  rw [colBcast3_apply, rowBcast3_apply, rowBcast3_apply]

/-- The second-order sparse block at `(y, f, e)`: `e2 · xvs`. -/
theorem secEmb_apply (x2 : FVec Ideal S1024x26 .f32) (x4 : FVec Ideal S1024x26x16 .f32) (y : Fin 1024) (f : Fin 26) (e : Fin 16) :
    k0_pay9 (F := Ideal) (k0_pay3 x2) (k0_pay4 x4) (ix3 y f e)
      = secEmb (fun f => x2 (ix2 y f)) (fun f e => x4 (ix3 y f e)) f e := by
  unfold k0_pay9 k0_pay3 k0_pay4 secEmb
  simp only [mulf_apply, shapeCast_self]
  rw [colBcast3_apply]

/-- The first-order dense block at `(y, f, e)`: `(xi · w1 + b1) · xvd`; and the sparse one: `e1 · xvs`.  Their flattened
    sums are the first-order term. -/
theorem first_apply (x0 x1 : FVec Ideal S1024x13 .f32) (x2 : FVec Ideal S1024x26 .f32) (x3 : FVec Ideal S1024x26x16 .f32)
    (x5 x6 : FVec Ideal S13x16 .f32) (y : Fin 1024) :
    k0_pay5 (F := Ideal) x0 x1 x2 x3 x5 x6 (ix1 y)
      = firstSum (fun f => x0 (ix2 y f)) (fun f => x1 (ix2 y f)) (fun f => x2 (ix2 y f)) (fun f e => x3 (ix3 y f e))
          (fun f e => x5 (ix2 f e)) (fun f e => x6 (ix2 f e)) := by
  unfold k0_pay5 k0_pay2 k0_pay3 firstSum
  simp only [addf_apply]
  refine congrArg₂ (· + ·) ?_ ?_
  · refine (sumCols_apply _ _ _ _ _ y).trans (Finset.sum_congr rfl fun k _ => ?_)
    refine (flatten_apply _ _ (by norm_num) y k (hi13 k) (lo13 k)
      (by show k.val = k.val / 16 * 16 + k.val % 16; omega)).trans ?_
    unfold firstLin
    simp only [addf_apply, mulf_apply, shapeCast_self]
    rw [colBcast3_apply, rowBcast3_apply, rowBcast3_apply, colBcast3_apply]
  · refine (sumCols_apply _ _ _ _ _ y).trans (Finset.sum_congr rfl fun k _ => ?_)
    refine (flatten_apply _ _ (by norm_num) y k (hi26 k) (lo26 k)
      (by show k.val = k.val / 16 * 16 + k.val % 16; omega)).trans ?_
    unfold firstEmb
    simp only [mulf_apply, shapeCast_self]
    rw [colBcast3_apply]

set_option backward.isDefEq.respectTransparency.types false in
/-- The second-order term: per component the square of the fields' sum less the sum of squares, halved, summed. -/
theorem second_apply (x0 : FVec Ideal S1024x13 .f32) (x2 : FVec Ideal S1024x26 .f32) (x4 : FVec Ideal S1024x26x16 .f32)
    (x7 x8 : FVec Ideal S13x16 .f32) (y : Fin 1024) :
    k0_pay10 (F := Ideal) (k0_pay3 x2) (k0_pay4 x4) x8 (k0_pay6 x0) (k0_pay7 x7) (ix1 y)
      = secondSum (fun f => x0 (ix2 y f)) (fun f => x2 (ix2 y f)) (fun f e => x4 (ix3 y f e))
          (fun f e => x7 (ix2 f e)) (fun f e => x8 (ix2 f e)) := by
  unfold k0_pay10 secondSum
  refine (sumCols_apply _ _ _ _ _ y).trans (Finset.sum_congr rfl fun e _ => ?_)
  simp only [mulf_apply, subf_apply, addf_apply, broadcast_apply]
  unfold sumEmb sumSq
  rw [sumMid_apply, sumMid_apply, sumMid_apply, sumMid_apply]
  simp only [mulf_apply, secLin_apply, secEmb_apply]
  rfl

/-- The deep part's input at `(y, k)`: the flattened dense block, then the flattened sparse block. -/
theorem deepIn_apply (x0 : FVec Ideal S1024x13 .f32) (x2 : FVec Ideal S1024x26 .f32) (x4 : FVec Ideal S1024x26x16 .f32)
    (x7 x8 : FVec Ideal S13x16 .f32) (y : Fin 1024) (k : Fin 624) :
    concatenate S1024x624 1 [⟨S1024x208, shapeCast S1024x208 (k0_pay8 (F := Ideal) x8 (k0_pay6 x0) (k0_pay7 x7)) shapeCasts_S1024x13x16_S1024x208⟩,
        ⟨S1024x416, shapeCast S1024x416 (k0_pay9 (F := Ideal) (k0_pay3 x2) (k0_pay4 x4)) shapeCasts_S1024x26x16_S1024x416⟩]
        concatenates_S1024x208_S1024x416_S1024x624_d1 (ix2 y k)
      = deepIn (fun f => x0 (ix2 y f)) (fun f => x2 (ix2 y f)) (fun f e => x4 (ix3 y f e))
          (fun f e => x7 (ix2 f e)) (fun f e => x8 (ix2 f e)) k := by
  refine (concatCols_apply _ _ _ (by norm_num) y k).trans ?_
  unfold deepIn
  by_cases hk : k.val < 208
  · rw [dif_pos hk, dif_pos hk]
    refine (flatten_apply _ _ (by norm_num) y ⟨k.val, hk⟩ (hi13 ⟨k.val, hk⟩) (lo13 ⟨k.val, hk⟩)
      (by show k.val = k.val / 16 * 16 + k.val % 16; omega)).trans ?_
    exact secLin_apply x0 x7 x8 y _ _
  · rw [dif_neg hk, dif_neg hk]
    refine (flatten_apply _ _ (by norm_num) y ⟨k.val - 208, by have := k.isLt; omega⟩ (hi26 ⟨k.val - 208, by have := k.isLt; omega⟩)
      (lo26 ⟨k.val - 208, by have := k.isLt; omega⟩)
      (by show k.val - 208 = (k.val - 208) / 16 * 16 + (k.val - 208) % 16; omega)).trans ?_
    exact secEmb_apply x2 x4 y _ _

/-! ### The 624-term product sum of the first layer

The contraction index of the printed dimension record is one coordinate; the operand indices at an output index
`(y, j)` and contraction coordinate `k` are `(y, k)` and `(k, j)`. -/

theorem lhs_first_0 (i : S1024x512.Idx) (q : dot_S1024x624_S624x512_S1024x512_1_0_0_1_n_n.contr.Idx) :
    (dot_S1024x624_S624x512_S1024x512_1_0_0_1_n_n.lhsIdx i q 0).val = (i 0).val := by
  unfold DotDims.lhsIdx
  rw [dif_neg (show ¬(0 : Fin S1024x624.rank) ∈ dot_S1024x624_S624x512_S1024x512_1_0_0_1_n_n.lhsBatch by decide), dif_pos (show (0 : Fin S1024x624.rank) ∈ dot_S1024x624_S624x512_S1024x512_1_0_0_1_n_n.lhsNonContracting by decide)]
  rfl
theorem lhs_first_1 (i : S1024x512.Idx) (q : dot_S1024x624_S624x512_S1024x512_1_0_0_1_n_n.contr.Idx) :
    (dot_S1024x624_S624x512_S1024x512_1_0_0_1_n_n.lhsIdx i q 1).val = (q ⟨0, by decide⟩).val :=
  dot_S1024x624_S624x512_S1024x512_1_0_0_1_n_n.lhsIdx_val_of_single rfl i q
theorem rhs_first_0 (i : S1024x512.Idx) (q : dot_S1024x624_S624x512_S1024x512_1_0_0_1_n_n.contr.Idx) :
    (dot_S1024x624_S624x512_S1024x512_1_0_0_1_n_n.rhsIdx i q 0).val = (q ⟨0, by decide⟩).val :=
  dot_S1024x624_S624x512_S1024x512_1_0_0_1_n_n.rhsIdx_val_of_single rfl i q
theorem rhs_first_1 (i : S1024x512.Idx) (q : dot_S1024x624_S624x512_S1024x512_1_0_0_1_n_n.contr.Idx) :
    (dot_S1024x624_S624x512_S1024x512_1_0_0_1_n_n.rhsIdx i q 1).val = (i 1).val := by
  unfold DotDims.rhsIdx
  rw [dif_neg (show ¬(1 : Fin S624x512.rank) ∈ dot_S1024x624_S624x512_S1024x512_1_0_0_1_n_n.rhsBatch by decide), dif_pos (show (1 : Fin S624x512.rank) ∈ dot_S1024x624_S624x512_S1024x512_1_0_0_1_n_n.rhsNonContracting by decide)]
  rfl

/-- The layer's matrix product into a zero accumulator, at `(y, j)`: the sum over `k` of left `(y, k)` times right `(k, j)`. -/
theorem matmul_first_apply (l : FVec Ideal S1024x624 .f32) (r : FVec Ideal S624x512 .f32) (y : Fin 1024) (j : Fin 512) :
    matmul dot_S1024x624_S624x512_S1024x512_1_0_0_1_n_n none l r (constant S1024x512 .f32 0x00000000#32) (ix2 y j)
      = ∑ k : Fin 624, l (ix2 y k) * r (ix2 k j) := by
  simp only [matmul]
  rw [Ideal.matmul_constant_zero_apply, ← Equiv.sum_comp (ValueIdx.contrEquiv1 dot_S1024x624_S624x512_S1024x512_1_0_0_1_n_n 624 rfl rfl).symm]
  refine Finset.sum_congr rfl fun k _ => ?_
  have hk := ValueIdx.contrEquiv1_symm_val dot_S1024x624_S624x512_S1024x512_1_0_0_1_n_n 624 rfl rfl k
  have el : dot_S1024x624_S624x512_S1024x512_1_0_0_1_n_n.lhsIdx (ix2 y j) ((ValueIdx.contrEquiv1 dot_S1024x624_S624x512_S1024x512_1_0_0_1_n_n 624 rfl rfl).symm k) = ix2 y k := funext fun a => Fin.ext (by
    match a with
    | ⟨0, _⟩ => exact lhs_first_0 _ _
    | ⟨1, _⟩ => exact (lhs_first_1 _ _).trans hk)
  have er : dot_S1024x624_S624x512_S1024x512_1_0_0_1_n_n.rhsIdx (ix2 y j) ((ValueIdx.contrEquiv1 dot_S1024x624_S624x512_S1024x512_1_0_0_1_n_n 624 rfl rfl).symm k) = ix2 k j := funext fun a => Fin.ext (by
    match a with
    | ⟨0, _⟩ => exact (rhs_first_0 _ _).trans hk
    | ⟨1, _⟩ => exact rhs_first_1 _ _)
  rw [el, er]

/-! ### The 512-term product sum of the second layer

The contraction index of the printed dimension record is one coordinate; the operand indices at an output index
`(y, j)` and contraction coordinate `k` are `(y, k)` and `(k, j)`. -/

theorem lhs_second_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_second_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_second_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_second_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The layer's matrix product into a zero accumulator, at `(y, j)`: the sum over `k` of left `(y, k)` times right `(k, j)`. -/
theorem matmul_second_apply (l : FVec Ideal S1024x512 .f32) (r : FVec Ideal S512x256 .f32) (y : Fin 1024) (j : Fin 256) :
    matmul dot_S1024x512_S512x256_S1024x256_1_0_0_1_n_n none l r (constant S1024x256 .f32 0x00000000#32) (ix2 y j)
      = ∑ k : Fin 512, l (ix2 y k) * r (ix2 k j) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 y j) ((ValueIdx.contrEquiv1 dot_S1024x512_S512x256_S1024x256_1_0_0_1_n_n 512 rfl rfl).symm k) = ix2 y k := funext fun a => Fin.ext (by
    match a with
    | ⟨0, _⟩ => exact lhs_second_0 _ _
    | ⟨1, _⟩ => exact (lhs_second_1 _ _).trans hk)
  have er : dot_S1024x512_S512x256_S1024x256_1_0_0_1_n_n.rhsIdx (ix2 y j) ((ValueIdx.contrEquiv1 dot_S1024x512_S512x256_S1024x256_1_0_0_1_n_n 512 rfl rfl).symm k) = ix2 k j := funext fun a => Fin.ext (by
    match a with
    | ⟨0, _⟩ => exact (rhs_second_0 _ _).trans hk
    | ⟨1, _⟩ => exact rhs_second_1 _ _)
  rw [el, er]

/-- The first deep layer at `(y, j)`: the product sum plus the offset, scaled by `cInv`, by the gain, plus the shift. -/
theorem hid1_apply (x0 : FVec Ideal S1024x13 .f32) (x2 : FVec Ideal S1024x26 .f32) (x4 : FVec Ideal S1024x26x16 .f32)
    (x7 x8 : FVec Ideal S13x16 .f32) (x9 : FVec Ideal S624x512 .f32) (x10 x11 x12 : FVec Ideal S512 .f32)
    (y : Fin 1024) (j : Fin 512) :
    k0_pay11 (F := Ideal) (k0_pay3 x2) (k0_pay4 x4) x8 (k0_pay6 x0) (k0_pay7 x7) x9 x10 x11 x12 (ix2 y j)
      = hid1 (fun f => x0 (ix2 y f)) (fun f => x2 (ix2 y f)) (fun f e => x4 (ix3 y f e))
          (fun f e => x7 (ix2 f e)) (fun f e => x8 (ix2 f e)) (fun k j => x9 (ix2 k j))
          (fun j => x10 (ix1 j)) (fun j => x11 (ix1 j)) (fun j => x12 (ix1 j)) j := by
  unfold k0_pay11 hid1
  simp only [addf_apply, mulf_apply, broadcast_apply]
  rw [matmul_first_apply, rowBcast2_apply, rowBcast2_apply, rowBcast2_apply]
  simp only [deepIn_apply]
  rfl

set_option backward.isDefEq.respectTransparency.types false in
/-- THE BODY'S RESULT at row `y` of the block: the row function of the block's row-`y` slices and the tables. -/
theorem row_apply (x0 x1 : FVec Ideal S1024x13 .f32) (x2 : FVec Ideal S1024x26 .f32) (x3 x4 : FVec Ideal S1024x26x16 .f32)
    (x5 x6 x7 x8 : FVec Ideal S13x16 .f32) (x9 : FVec Ideal S624x512 .f32) (x10 x11 x12 : FVec Ideal S512 .f32)
    (x13 : FVec Ideal S512x256 .f32) (x14 x15 x16 : FVec Ideal S256 .f32) (x17 : FVec Ideal S1024 .f32) (y : Fin 1024) :
    k0_pay1 (F := Ideal) (k0_pay5 x0 x1 x2 x3 x5 x6) (k0_pay10 (k0_pay3 x2) (k0_pay4 x4) x8 (k0_pay6 x0) (k0_pay7 x7))
        (k0_pay11 (k0_pay3 x2) (k0_pay4 x4) x8 (k0_pay6 x0) (k0_pay7 x7) x9 x10 x11 x12) x13 x14 x15 x16 x17 (ix1 y)
      = row (fun f => x0 (ix2 y f)) (fun f => x1 (ix2 y f)) (fun f => x2 (ix2 y f)) (fun f e => x3 (ix3 y f e))
          (fun f e => x4 (ix3 y f e)) (fun f e => x5 (ix2 f e)) (fun f e => x6 (ix2 f e)) (fun f e => x7 (ix2 f e))
          (fun f e => x8 (ix2 f e)) (fun k j => x9 (ix2 k j)) (fun j => x10 (ix1 j)) (fun j => x11 (ix1 j))
          (fun j => x12 (ix1 j)) (fun k j => x13 (ix2 k j)) (fun j => x14 (ix1 j)) (fun j => x15 (ix1 j))
          (fun j => x16 (ix1 j)) (x17 (ix1 y)) := by
  unfold k0_pay1 row deepSum
  simp only [addf_apply]
  rw [first_apply, second_apply, sumCols_apply]
  refine congrArg₂ (· + ·) (congrArg₂ (· + ·) rfl (Finset.sum_congr rfl fun j _ => ?_)) rfl
  unfold hid2
  simp only [addf_apply, mulf_apply, broadcast_apply]
  rw [matmul_second_apply, rowBcast2_apply, rowBcast2_apply, rowBcast2_apply]
  simp only [hid1_apply]
  rfl

/-- The same at any index of the block, the row read off the index's coordinate. -/
theorem row_apply_idx (x0 x1 : FVec Ideal S1024x13 .f32) (x2 : FVec Ideal S1024x26 .f32) (x3 x4 : FVec Ideal S1024x26x16 .f32)
    (x5 x6 x7 x8 : FVec Ideal S13x16 .f32) (x9 : FVec Ideal S624x512 .f32) (x10 x11 x12 : FVec Ideal S512 .f32)
    (x13 : FVec Ideal S512x256 .f32) (x14 x15 x16 : FVec Ideal S256 .f32) (x17 : FVec Ideal S1024 .f32) (j : S1024.Idx) :
    k0_pay1 (F := Ideal) (k0_pay5 x0 x1 x2 x3 x5 x6)
        (k0_pay10 (k0_pay3 x2) (k0_pay4 x4) x8 (k0_pay6 x0) (k0_pay7 x7))
        (k0_pay11 (k0_pay3 x2) (k0_pay4 x4) x8 (k0_pay6 x0) (k0_pay7 x7) x9 x10 x11 x12)
        x13 x14 x15 x16 x17 j
      = row (fun f => x0 (ix2 (j 0) f)) (fun f => x1 (ix2 (j 0) f)) (fun f => x2 (ix2 (j 0) f)) (fun f e => x3 (ix3 (j 0) f e))
          (fun f e => x4 (ix3 (j 0) f e)) (fun f e => x5 (ix2 f e)) (fun f e => x6 (ix2 f e)) (fun f e => x7 (ix2 f e))
          (fun f e => x8 (ix2 f e)) (fun k j => x9 (ix2 k j)) (fun j => x10 (ix1 j)) (fun j => x11 (ix1 j))
          (fun j => x12 (ix1 j)) (fun k j => x13 (ix2 k j)) (fun j => x14 (ix1 j)) (fun j => x15 (ix1 j))
          (fun j => x16 (ix1 j)) (x17 j) := by
  obtain ⟨y, rfl⟩ : ∃ y : Fin 1024, j = ix1 y := ⟨j 0, eq_ix1 j⟩
  exact row_apply x0 x1 x2 x3 x4 x5 x6 x7 x8 x9 x10 x11 x12 x13 x14 x15 x16 x17 y

end Cert.KernelIdeal.RowValue

end
-- ==== Proof.KernelValue.lean ====
/-
  The kernel's result array: each of the 16 grid points writes back the block of 1024 rows it computed, row `y` of point
  `t`'s block being the row function of row `1024 · t + y` of the batch arrays; the blocks tile the array.
-/
import proofs.«426230_j27169963114981_1_alg».proof.Proof.Gen.KernelIdeal.Value
import proofs.«426230_j27169963114981_1_alg».proof.Proof.KernelRow

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.FmRow

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- THE RESULT ARRAY: entry `r` is the row function of row `r` of the five batch arrays the host operations before the
    region leave (the dense scalars as floats, the two slices of the weights, the two looked-up embedding blocks) and of
    the twelve tables and the bias as launched. -/
abbrev G (c : Dev nD) : S16384.Idx → EReal :=
  FmRow.arr (n := 16384) (V m c main_v2) (V m c main_v5) (V m c main_v6) (V m c main_v23) (V m c main_v38)
    (V m c main_arg2) (V m c main_arg3) (V m c main_arg5) (V m c main_arg6) (V m c main_arg8) (V m c main_arg9)
    (V m c main_arg10) (V m c main_arg11) (V m c main_arg12) (V m c main_arg13) (V m c main_arg14) (V m c main_arg15)
    (V m c main_arg16)

/-- The printed index maps over the 16 grid points: a batch-blocked window's block index is the point on the batch axis
    and zero elsewhere … -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_17.index t (0 : Fin 1) = t.val ∧ win0_18.index t (0 : Fin 1) = t.val :=
  (by decide +kernel : ∀ t : Fin grid0.N, _)

/-- … and a table's window always has block index zero: its one block is the whole table. -/
theorem idx_whole : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 ∧ win0_11.index t (0 : Fin 1) = 0 ∧ win0_12.index t (0 : Fin 1) = 0
    ∧ win0_13.index t (0 : Fin 2) = 0 ∧ win0_13.index t (1 : Fin 2) = 0
    ∧ win0_14.index t (0 : Fin 1) = 0 ∧ win0_15.index t (0 : Fin 1) = 0 ∧ win0_16.index t (0 : Fin 1) = 0 :=
  (by decide +kernel : ∀ t : Fin grid0.N, _)

/-! ### Each window's block at a point, as rows of its array

A batch-blocked window's block at point `t` holds rows `1024 · t …` of its array; a table's one block is the table. -/

theorem blk0 (c : Dev nD) (t : Fin cfg0.N) (y : Fin 1024) (f : Fin 13) (ht : t.val * 1024 + y.val < 16384) :
    (iblk m c 0 t : Vec Ideal S1024x13 .f32) (ix2 y f)
      = (V m c main_v2 : S16384x13.Idx → Elt Ideal .f32) (ix2 ⟨t.val * 1024 + y.val, ht⟩ f) := by
  have hi : win0_0.index t (0 : Fin 2) = t.val ∧ win0_0.index t (1 : Fin 2) = 0 := by
    obtain ⟨h00, h01, h10, h11, h20, h21, -⟩ := idx_rows t
    exact ⟨h00, h01⟩
  unfold iblk
  rw [View.read_apply]
  show V m c main_v2 _ = V m c main_v2 _
  congr 1
  funext a
  apply Fin.ext
  match a with
  | ⟨0, _⟩ => show win0_0.index t 0 * 1024 + 1 * y.val = t.val * 1024 + y.val; rw [hi.1]; omega
  | ⟨1, _⟩ => show win0_0.index t 1 * 13 + 1 * f.val = f.val; rw [hi.2]; omega

theorem blk1 (c : Dev nD) (t : Fin cfg0.N) (y : Fin 1024) (f : Fin 13) (ht : t.val * 1024 + y.val < 16384) :
    (iblk m c 1 t : Vec Ideal S1024x13 .f32) (ix2 y f)
      = (V m c main_v5 : S16384x13.Idx → Elt Ideal .f32) (ix2 ⟨t.val * 1024 + y.val, ht⟩ f) := by
  have hi : win0_1.index t (0 : Fin 2) = t.val ∧ win0_1.index t (1 : Fin 2) = 0 := by
    obtain ⟨h00, h01, h10, h11, h20, h21, -⟩ := idx_rows t
    exact ⟨h10, h11⟩
  unfold iblk
  rw [View.read_apply]
  show V m c main_v5 _ = V m c main_v5 _
  congr 1
  funext a
  apply Fin.ext
  match a with
  | ⟨0, _⟩ => show win0_1.index t 0 * 1024 + 1 * y.val = t.val * 1024 + y.val; rw [hi.1]; omega
  | ⟨1, _⟩ => show win0_1.index t 1 * 13 + 1 * f.val = f.val; rw [hi.2]; omega

theorem blk2 (c : Dev nD) (t : Fin cfg0.N) (y : Fin 1024) (f : Fin 26) (ht : t.val * 1024 + y.val < 16384) :
    (iblk m c 2 t : Vec Ideal S1024x26 .f32) (ix2 y f)
      = (V m c main_v6 : S16384x26.Idx → Elt Ideal .f32) (ix2 ⟨t.val * 1024 + y.val, ht⟩ f) := by
  have hi : win0_2.index t (0 : Fin 2) = t.val ∧ win0_2.index t (1 : Fin 2) = 0 := by
    obtain ⟨h00, h01, h10, h11, h20, h21, -⟩ := idx_rows t
    exact ⟨h20, h21⟩
  unfold iblk
  rw [View.read_apply]
  show V m c main_v6 _ = V m c main_v6 _
  congr 1
  funext a
  apply Fin.ext
  match a with
  | ⟨0, _⟩ => show win0_2.index t 0 * 1024 + 1 * y.val = t.val * 1024 + y.val; rw [hi.1]; omega
  | ⟨1, _⟩ => show win0_2.index t 1 * 26 + 1 * f.val = f.val; rw [hi.2]; omega

theorem blk3 (c : Dev nD) (t : Fin cfg0.N) (y : Fin 1024) (f : Fin 26) (e : Fin 16) (ht : t.val * 1024 + y.val < 16384) :
    (iblk m c 3 t : Vec Ideal S1024x26x16 .f32) (ix3 y f e)
      = (V m c main_v23 : S16384x26x16.Idx → Elt Ideal .f32) (ix3 ⟨t.val * 1024 + y.val, ht⟩ f e) := by
  have hi : win0_3.index t (0 : Fin 3) = t.val ∧ win0_3.index t (1 : Fin 3) = 0 ∧ win0_3.index t (2 : Fin 3) = 0 := by
    obtain ⟨-, -, -, -, -, -, h30, h31, h32, h40, h41, h42, -⟩ := idx_rows t
    exact ⟨h30, h31, h32⟩
  unfold iblk
  rw [View.read_apply]
  show V m c main_v23 _ = V m c main_v23 _
  congr 1
  funext a
  apply Fin.ext
  match a with
  | ⟨0, _⟩ => show win0_3.index t 0 * 1024 + 1 * y.val = t.val * 1024 + y.val; rw [hi.1]; omega
  | ⟨1, _⟩ => show win0_3.index t 1 * 26 + 1 * f.val = f.val; rw [hi.2.1]; omega
  | ⟨2, _⟩ => show win0_3.index t 2 * 16 + 1 * e.val = e.val; rw [hi.2.2]; omega

theorem blk4 (c : Dev nD) (t : Fin cfg0.N) (y : Fin 1024) (f : Fin 26) (e : Fin 16) (ht : t.val * 1024 + y.val < 16384) :
    (iblk m c 4 t : Vec Ideal S1024x26x16 .f32) (ix3 y f e)
      = (V m c main_v38 : S16384x26x16.Idx → Elt Ideal .f32) (ix3 ⟨t.val * 1024 + y.val, ht⟩ f e) := by
  have hi : win0_4.index t (0 : Fin 3) = t.val ∧ win0_4.index t (1 : Fin 3) = 0 ∧ win0_4.index t (2 : Fin 3) = 0 := by
    obtain ⟨-, -, -, -, -, -, h30, h31, h32, h40, h41, h42, -⟩ := idx_rows t
    exact ⟨h40, h41, h42⟩
  unfold iblk
  rw [View.read_apply]
  show V m c main_v38 _ = V m c main_v38 _
  congr 1
  funext a
  apply Fin.ext
  match a with
  | ⟨0, _⟩ => show win0_4.index t 0 * 1024 + 1 * y.val = t.val * 1024 + y.val; rw [hi.1]; omega
  | ⟨1, _⟩ => show win0_4.index t 1 * 26 + 1 * f.val = f.val; rw [hi.2.1]; omega
  | ⟨2, _⟩ => show win0_4.index t 2 * 16 + 1 * e.val = e.val; rw [hi.2.2]; omega

theorem blk17 (c : Dev nD) (t : Fin cfg0.N) (y : Fin 1024) (ht : t.val * 1024 + y.val < 16384) :
    (iblk m c 17 t : Vec Ideal S1024 .f32) (ix1 y)
      = (V m c main_arg16 : S16384.Idx → Elt Ideal .f32) (ix1 ⟨t.val * 1024 + y.val, ht⟩) := by
  have hi : win0_17.index t (0 : Fin 1) = t.val := by
    obtain ⟨-, -, -, -, -, -, -, -, -, -, -, -, h17, -⟩ := idx_rows t
    exact h17
  unfold iblk
  rw [View.read_apply]
  show V m c main_arg16 _ = V m c main_arg16 _
  congr 1
  funext a
  apply Fin.ext
  match a with
  | ⟨0, _⟩ => show win0_17.index t 0 * 1024 + 1 * y.val = t.val * 1024 + y.val; rw [hi]; omega

theorem blk5 (c : Dev nD) (t : Fin cfg0.N) :
    (iblk m c 5 t : Vec Ideal S13x16 .f32) = (V m c main_arg2 : S13x16.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg2 _ = V m c main_arg2 _
  congr 1
  funext a
  apply Fin.ext
  match a with
  | ⟨0, _⟩ => show win0_5.index t 0 * 13 + 1 * (x 0).val = (x 0).val; rw [h50]; omega
  | ⟨1, _⟩ => show win0_5.index t 1 * 16 + 1 * (x 1).val = (x 1).val; rw [h51]; omega

theorem blk6 (c : Dev nD) (t : Fin cfg0.N) :
    (iblk m c 6 t : Vec Ideal S13x16 .f32) = (V m c main_arg3 : S13x16.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg3 _ = V m c main_arg3 _
  congr 1
  funext a
  apply Fin.ext
  match a with
  | ⟨0, _⟩ => show win0_6.index t 0 * 13 + 1 * (x 0).val = (x 0).val; rw [h60]; omega
  | ⟨1, _⟩ => show win0_6.index t 1 * 16 + 1 * (x 1).val = (x 1).val; rw [h61]; omega

theorem blk7 (c : Dev nD) (t : Fin cfg0.N) :
    (iblk m c 7 t : Vec Ideal S13x16 .f32) = (V m c main_arg5 : S13x16.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg5 _ = V m c main_arg5 _
  congr 1
  funext a
  apply Fin.ext
  match a with
  | ⟨0, _⟩ => show win0_7.index t 0 * 13 + 1 * (x 0).val = (x 0).val; rw [h70]; omega
  | ⟨1, _⟩ => show win0_7.index t 1 * 16 + 1 * (x 1).val = (x 1).val; rw [h71]; omega

theorem blk8 (c : Dev nD) (t : Fin cfg0.N) :
    (iblk m c 8 t : Vec Ideal S13x16 .f32) = (V m c main_arg6 : S13x16.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg6 _ = V m c main_arg6 _
  congr 1
  funext a
  apply Fin.ext
  match a with
  | ⟨0, _⟩ => show win0_8.index t 0 * 13 + 1 * (x 0).val = (x 0).val; rw [h80]; omega
  | ⟨1, _⟩ => show win0_8.index t 1 * 16 + 1 * (x 1).val = (x 1).val; rw [h81]; omega

theorem blk9 (c : Dev nD) (t : Fin cfg0.N) :
    (iblk m c 9 t : Vec Ideal S624x512 .f32) = (V m c main_arg8 : S624x512.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg8 _ = V m c main_arg8 _
  congr 1
  funext a
  apply Fin.ext
  match a with
  | ⟨0, _⟩ => show win0_9.index t 0 * 624 + 1 * (x 0).val = (x 0).val; rw [h90]; omega
  | ⟨1, _⟩ => show win0_9.index t 1 * 512 + 1 * (x 1).val = (x 1).val; rw [h91]; omega

theorem blk10 (c : Dev nD) (t : Fin cfg0.N) :
    (iblk m c 10 t : Vec Ideal S512 .f32) = (V m c main_arg9 : S512.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg9 _ = V m c main_arg9 _
  congr 1
  funext a
  apply Fin.ext
  match a with
  | ⟨0, _⟩ => show win0_10.index t 0 * 512 + 1 * (x 0).val = (x 0).val; rw [h100]; omega

theorem blk11 (c : Dev nD) (t : Fin cfg0.N) :
    (iblk m c 11 t : Vec Ideal S512 .f32) = (V m c main_arg10 : S512.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg10 _ = V m c main_arg10 _
  congr 1
  funext a
  apply Fin.ext
  match a with
  | ⟨0, _⟩ => show win0_11.index t 0 * 512 + 1 * (x 0).val = (x 0).val; rw [h110]; omega

theorem blk12 (c : Dev nD) (t : Fin cfg0.N) :
    (iblk m c 12 t : Vec Ideal S512 .f32) = (V m c main_arg11 : S512.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg11 _ = V m c main_arg11 _
  congr 1
  funext a
  apply Fin.ext
  match a with
  | ⟨0, _⟩ => show win0_12.index t 0 * 512 + 1 * (x 0).val = (x 0).val; rw [h120]; omega

theorem blk13 (c : Dev nD) (t : Fin cfg0.N) :
    (iblk m c 13 t : Vec Ideal S512x256 .f32) = (V m c main_arg12 : S512x256.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg12 _ = V m c main_arg12 _
  congr 1
  funext a
  apply Fin.ext
  match a with
  | ⟨0, _⟩ => show win0_13.index t 0 * 512 + 1 * (x 0).val = (x 0).val; rw [h130]; omega
  | ⟨1, _⟩ => show win0_13.index t 1 * 256 + 1 * (x 1).val = (x 1).val; rw [h131]; omega

theorem blk14 (c : Dev nD) (t : Fin cfg0.N) :
    (iblk m c 14 t : Vec Ideal S256 .f32) = (V m c main_arg13 : S256.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg13 _ = V m c main_arg13 _
  congr 1
  funext a
  apply Fin.ext
  match a with
  | ⟨0, _⟩ => show win0_14.index t 0 * 256 + 1 * (x 0).val = (x 0).val; rw [h140]; omega

theorem blk15 (c : Dev nD) (t : Fin cfg0.N) :
    (iblk m c 15 t : Vec Ideal S256 .f32) = (V m c main_arg14 : S256.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg14 _ = V m c main_arg14 _
  congr 1
  funext a
  apply Fin.ext
  match a with
  | ⟨0, _⟩ => show win0_15.index t 0 * 256 + 1 * (x 0).val = (x 0).val; rw [h150]; omega

theorem blk16 (c : Dev nD) (t : Fin cfg0.N) :
    (iblk m c 16 t : Vec Ideal S256 .f32) = (V m c main_arg15 : S256.Idx → Elt Ideal .f32) := by
  obtain ⟨h50, h51, h60, h61, h70, h71, h80, h81, h90, h91, h100, h110, h120, h130, h131, h140, h150, h160⟩ := idx_whole t
  funext x
  unfold iblk
  rw [View.read_apply]
  show V m c main_arg15 _ = V m c main_arg15 _
  congr 1
  funext a
  apply Fin.ext
  match a with
  | ⟨0, _⟩ => show win0_16.index t 0 * 256 + 1 * (x 0).val = (x 0).val; rw [h160]; omega

/-! ### The body's result at a point, as the result array's rows -/

/-- What the body stores at row `j` of point `t`'s block is entry `1024 · t + j` of the result array. -/
theorem body_at (c : Dev nD) (t : Fin cfg0.N) (j : S1024.Idx) (ht : t.val * 1024 + (j 0).val < 16384) :
    k0_pay1 (F := Ideal) (k0_pay5 (iblk m c 0 t) (iblk m c 1 t) (iblk m c 2 t) (iblk m c 3 t) (iblk m c 5 t) (iblk m c 6 t))
        (k0_pay10 (k0_pay3 (iblk m c 2 t)) (k0_pay4 (iblk m c 4 t)) (iblk m c 8 t) (k0_pay6 (iblk m c 0 t)) (k0_pay7 (iblk m c 7 t)))
        (k0_pay11 (k0_pay3 (iblk m c 2 t)) (k0_pay4 (iblk m c 4 t)) (iblk m c 8 t) (k0_pay6 (iblk m c 0 t)) (k0_pay7 (iblk m c 7 t)) (iblk m c 9 t) (iblk m c 10 t) (iblk m c 11 t) (iblk m c 12 t))
        (iblk m c 13 t) (iblk m c 14 t) (iblk m c 15 t) (iblk m c 16 t) (iblk m c 17 t) j
      = G m c (ix1 ⟨t.val * 1024 + (j 0).val, ht⟩) := by
  have hj : j = ix1 (j 0) := eq_ix1 j
  refine (Cert.KernelIdeal.RowValue.row_apply_idx (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) j).trans ?_
  rw [blk5 m c t, blk6 m c t, blk7 m c t, blk8 m c t, blk9 m c t, blk10 m c t, blk11 m c t, blk12 m c t, blk13 m c t,
    blk14 m c t, blk15 m c t, blk16 m c t]
  have e0 : (fun f => (iblk m c 0 t : Vec Ideal S1024x13 .f32) (ix2 (j 0) f))
      = fun f => (V m c main_v2 : S16384x13.Idx → Elt Ideal .f32) (ix2 ⟨t.val * 1024 + (j 0).val, ht⟩ f) :=
    funext fun f => blk0 m c t (j 0) f ht
  have e1 : (fun f => (iblk m c 1 t : Vec Ideal S1024x13 .f32) (ix2 (j 0) f))
      = fun f => (V m c main_v5 : S16384x13.Idx → Elt Ideal .f32) (ix2 ⟨t.val * 1024 + (j 0).val, ht⟩ f) :=
    funext fun f => blk1 m c t (j 0) f ht
  have e2 : (fun f => (iblk m c 2 t : Vec Ideal S1024x26 .f32) (ix2 (j 0) f))
      = fun f => (V m c main_v6 : S16384x26.Idx → Elt Ideal .f32) (ix2 ⟨t.val * 1024 + (j 0).val, ht⟩ f) :=
    funext fun f => blk2 m c t (j 0) f ht
  have e3 : (fun f e => (iblk m c 3 t : Vec Ideal S1024x26x16 .f32) (ix3 (j 0) f e))
      = fun f e => (V m c main_v23 : S16384x26x16.Idx → Elt Ideal .f32) (ix3 ⟨t.val * 1024 + (j 0).val, ht⟩ f e) :=
    funext fun f => funext fun e => blk3 m c t (j 0) f e ht
  have e4 : (fun f e => (iblk m c 4 t : Vec Ideal S1024x26x16 .f32) (ix3 (j 0) f e))
      = fun f e => (V m c main_v38 : S16384x26x16.Idx → Elt Ideal .f32) (ix3 ⟨t.val * 1024 + (j 0).val, ht⟩ f e) :=
    funext fun f => funext fun e => blk4 m c t (j 0) f e ht
  have e17 : (iblk m c 17 t : Vec Ideal S1024 .f32) j
      = (V m c main_arg16 : S16384.Idx → Elt Ideal .f32) (ix1 ⟨t.val * 1024 + (j 0).val, ht⟩) :=
    (congrArg (iblk m c 17 t : Vec Ideal S1024 .f32) hj).trans (blk17 m c t (j 0) ht)
  rw [e0, e1, e2, e3, e4, e17]
  rfl

/-- WHAT POINT `t` WRITES BACK is block `t` of the result array. -/
theorem flushed_eq (c : Dev nD) (t : Fin cfg0.N) :
    (dats m 0 c).flushed 18 t = ((cfg0.win 18).blk t).view.read (Elt Ideal) (G m c) := by
  have hN : cfg0.N = 16 := N_0
  obtain ⟨-, -, -, -, -, -, -, -, -, -, -, -, -, h18⟩ := idx_rows t
  rw [flushed18]
  unfold out0_18
  rw [View.canon_unit_zero hz1]
  simp only [View.ld_unit_zero (S := S1024x13) hz2, View.ld_unit_zero (S := S1024x26) hz2,
    View.ld_unit_zero (S := S1024x26x16) hz3, View.ld_unit_zero (S := S13x16) hz2, View.ld_unit_zero (S := S624x512) hz2,
    View.ld_unit_zero (S := S512) hz1, View.ld_unit_zero (S := S512x256) hz2, View.ld_unit_zero (S := S256) hz1,
    View.ld_unit_zero (S := S1024) hz1]
  funext j
  have hj : (j 0).val < 1024 := (j 0).isLt
  have ht : t.val * 1024 + (j 0).val < 16384 := by have := t.isLt; omega
  rw [View.read_apply]
  refine Eq.trans (b := G m c (ix1 ⟨t.val * 1024 + (j 0).val, ht⟩)) (body_at m c t j ht) ?_
  show G m c _ = G m c _
  refine congrArg (G m c) (funext fun a => Fin.ext ?_)
  match a with
  | ⟨0, _⟩ => show t.val * 1024 + (j 0).val = win0_18.index t 0 * 1024 + 1 * (j 0).val; rw [h18]; omega

/-- Every entry of the result array is in the block of the point its row falls in: the 16 blocks of 1024 rows tile it. -/
theorem cover (i : S16384.Idx) :
    ∃ t : Fin cfg0.N, (cfg0.win 18).flush t = true ∧ i ∈ ((cfg0.win 18).blk t).view.set := by
  have hi : (i 0).val < 16384 := (i 0).isLt
  have hq : (i 0).val / 1024 < cfg0.N := by rw [show cfg0.N = 16 from N_0]; omega
  obtain ⟨-, -, -, -, -, -, -, -, -, -, -, -, -, h18⟩ := idx_rows ⟨(i 0).val / 1024, hq⟩
  refine ⟨⟨(i 0).val / 1024, hq⟩, flush0_18 _, ?_⟩
  show i ∈ ((View.whole main_v39).slice (win0_18.rect ⟨(i 0).val / 1024, hq⟩)).set
  rw [View.set_slice_whole, Rect.mem_set_unit]
  intro a
  match a with
  | ⟨0, _⟩ =>
    show win0_18.index ⟨(i 0).val / 1024, hq⟩ 0 * 1024 ≤ (i 0).val
      ∧ (i 0).val < win0_18.index ⟨(i 0).val / 1024, hq⟩ 0 * 1024 + 1024
    rw [h18]
    show (i 0).val / 1024 * 1024 ≤ (i 0).val ∧ (i 0).val < (i 0).val / 1024 * 1024 + 1024
    omega

/-- So the result array ends holding `G`. -/
theorem final (c : Dev nD) : (dats m 0 c).arrAt 18 cfg0.N = G m c :=
  (dats m 0 c).arrAt_eq_of_cover 18 (G m c) (fun t _ => flushed_eq m c t) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v39) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (run_blocks m ρ)

end Cert.KernelIdeal.ArrValue

end
-- ==== Proof.RefRow.lean ====
/-
  The reference program's result, one batch row at a time.

  The generated module reads every operation of the reference at an index from its operands.  Chaining those readings
  from the result back to the arguments, each intermediate array of the reference, read at row `r`, is the matching
  piece of `FmRow`: the two first-order blocks, their concatenation's sum (one sum over 624 positions in the reference,
  split here into the two blocks' sums by `FmRow.sum_concat`), the per-component sums of the second-order term, the
  deep part's 624 inputs, its two layers, and the three terms' sum with the bias.  The dense scalars as floats, the two
  slices of the weights and the two gathered embedding arrays are never opened: they enter only through their entries
  at row `r`.
-/
import proofs.«426230_j27169963114981_1_alg».proof.Proof.Gen.ReferenceIdeal.Read
import proofs.«426230_j27169963114981_1_alg».proof.Proof.FmSpec
import proofs.«426230_j27169963114981_1_alg».proof.Proof.LibRowLayout

noncomputable section

namespace Cert.ReferenceIdeal.RowValue

open Cert.ReferenceIdeal Cert.ReferenceIdeal.Gen Cert.ReferenceIdeal.Read Idealize.ShloMosaic Idealize.ShloMosaic.ValueIdx Cert.FmRow Cert.RowLayout

/-- Two indices are equal when each coordinate of one computes to the same coordinate of the other (ranks 1, 2, 3). -/
local macro "coords1" : tactic => `(tactic| (funext a; refine Fin.ext ?_; match a with | ⟨0, _⟩ => rfl))
local macro "coords2" : tactic => `(tactic| (funext a; refine Fin.ext ?_; match a with | ⟨0, _⟩ => rfl | ⟨1, _⟩ => rfl))
local macro "coords3" : tactic =>
  `(tactic| (funext a; refine Fin.ext ?_; match a with | ⟨0, _⟩ => rfl | ⟨1, _⟩ => rfl | ⟨2, _⟩ => rfl))

section Row

variable (x0 : (⟨S16384x39x1, .i32⟩ : BufTy).Contents (Elt Ideal)) (x1 : (⟨S16384x39, .f32⟩ : BufTy).Contents (Elt Ideal))
  (x2 x3 : (⟨S13x16, .f32⟩ : BufTy).Contents (Elt Ideal)) (x4 : (⟨S26x100000x16, .f32⟩ : BufTy).Contents (Elt Ideal))
  (x5 x6 : (⟨S13x16, .f32⟩ : BufTy).Contents (Elt Ideal)) (x7 : (⟨S26x100000x16, .f32⟩ : BufTy).Contents (Elt Ideal))
  (x8 : (⟨S624x512, .f32⟩ : BufTy).Contents (Elt Ideal)) (x9 x10 x11 : (⟨S512, .f32⟩ : BufTy).Contents (Elt Ideal))
  (x12 : (⟨S512x256, .f32⟩ : BufTy).Contents (Elt Ideal)) (x13 x14 x15 : (⟨S256, .f32⟩ : BufTy).Contents (Elt Ideal))
  (x16 : (⟨S16384, .f32⟩ : BufTy).Contents (Elt Ideal)) (r : Fin 16384)

/-! ## The row's slices and the shared tables, by coordinates -/

/-- Row `r`'s dense scalars … -/
abbrev rXi : Fin 13 → EReal := fun f => val_main_v2 (F := Ideal) x0 (ix2 r f)
/-- … their weights … -/
abbrev rXvd : Fin 13 → EReal := fun f => val_main_v5 (F := Ideal) x1 (ix2 r f)
/-- … the sparse fields' weights … -/
abbrev rXvs : Fin 26 → EReal := fun f => val_main_v6 (F := Ideal) x1 (ix2 r f)
/-- … and the looked-up embedding rows of the first-order and of the second-order table. -/
abbrev rE1 : Fin 26 → Fin 16 → EReal := fun f e => val_main_v34 (F := Ideal) x0 x4 (ix3 r f e)
abbrev rE2 : Fin 26 → Fin 16 → EReal := fun f e => val_main_v63 (F := Ideal) x0 x7 (ix3 r f e)

/-- A 13 × 16 table by coordinates. -/
abbrev tab (w : (⟨S13x16, .f32⟩ : BufTy).Contents (Elt Ideal)) : Fin 13 → Fin 16 → EReal := fun f e => w (ix2 f e)
/-- The first layer's matrix and a 512-vector by coordinates. -/
abbrev mat1 (w : (⟨S624x512, .f32⟩ : BufTy).Contents (Elt Ideal)) : Fin 624 → Fin 512 → EReal := fun k j => w (ix2 k j)
abbrev vec1 (v : (⟨S512, .f32⟩ : BufTy).Contents (Elt Ideal)) : Fin 512 → EReal := fun j => v (ix1 j)
/-- The second layer's matrix and a 256-vector by coordinates. -/
abbrev mat2 (w : (⟨S512x256, .f32⟩ : BufTy).Contents (Elt Ideal)) : Fin 512 → Fin 256 → EReal := fun k j => w (ix2 k j)
abbrev vec2 (v : (⟨S256, .f32⟩ : BufTy).Contents (Elt Ideal)) : Fin 256 → EReal := fun j => v (ix1 j)

/-! ## Flattening: position `k` of a flattened block is field `k / 16`, component `k % 16` -/

theorem idx38 (k : Fin 208) : idx_main_v38 (ix2 r k) = ix3 r (hi13 k) (lo13 k) := by
  funext a; refine Fin.ext ?_
  have hk := k.isLt
  match a with
  | ⟨0, _⟩ => show (r.val * 208 + k.val) / 208 = r.val; omega
  | ⟨1, _⟩ => show (r.val * 208 + k.val) / 16 % 13 = k.val / 16; omega
  | ⟨2, _⟩ => show (r.val * 208 + k.val) % 16 = k.val % 16; omega

theorem idx79 (k : Fin 208) : idx_main_v79 (ix2 r k) = ix3 r (hi13 k) (lo13 k) := by
  funext a; refine Fin.ext ?_
  have hk := k.isLt
  match a with
  | ⟨0, _⟩ => show (r.val * 208 + k.val) / 208 = r.val; omega
  | ⟨1, _⟩ => show (r.val * 208 + k.val) / 16 % 13 = k.val / 16; omega
  | ⟨2, _⟩ => show (r.val * 208 + k.val) % 16 = k.val % 16; omega

theorem idx39 (k : Fin 416) : idx_main_v39 (ix2 r k) = ix3 r (hi26 k) (lo26 k) := by
  funext a; refine Fin.ext ?_
  have hk := k.isLt
  match a with
  | ⟨0, _⟩ => show (r.val * 416 + k.val) / 416 = r.val; omega
  | ⟨1, _⟩ => show (r.val * 416 + k.val) / 16 % 26 = k.val / 16; omega
  | ⟨2, _⟩ => show (r.val * 416 + k.val) % 16 = k.val % 16; omega

theorem idx80 (k : Fin 416) : idx_main_v80 (ix2 r k) = ix3 r (hi26 k) (lo26 k) := by
  funext a; refine Fin.ext ?_
  have hk := k.isLt
  match a with
  | ⟨0, _⟩ => show (r.val * 416 + k.val) / 416 = r.val; omega
  | ⟨1, _⟩ => show (r.val * 416 + k.val) / 16 % 26 = k.val / 16; omega
  | ⟨2, _⟩ => show (r.val * 416 + k.val) % 16 = k.val % 16; omega

/-! ## The first-order term -/

/-- The dense block: `(xi · w1 + b1) · xvd`, the scalars and the weights broadcast along the components, the tables
    over the rows. -/
theorem v19_at (f : Fin 13) (e : Fin 16) :
    val_main_v19 (F := Ideal) x0 x1 x2 x3 (ix3 r f e) = firstLin (rXi x0 r) (rXvd x1 r) (tab x2) (tab x3) f e := by
  have h1 : idx_main_v9 (idx_main_v11 (ix3 r f e)) = ix2 r f := by coords2
  have h2 : idx_main_v10 (idx_main_v12 (ix3 r f e)) = ix2 f e := by coords2
  have h3 : idx_main_v14 (idx_main_v15 (ix3 r f e)) = ix2 f e := by coords2
  have h4 : idx_main_v17 (idx_main_v18 (ix3 r f e)) = ix2 r f := by coords2
  rw [val_main_v19_apply, val_main_v16_apply, val_main_v13_apply, val_main_v11_apply, val_main_v9_apply,
    val_main_v12_apply, val_main_v10_apply, val_main_v15_apply, val_main_v14_apply, val_main_v18_apply,
    val_main_v17_apply, h1, h2, h3, h4]
  rfl

/-- The sparse block: the looked-up row times the field's weight. -/
theorem v37_at (f : Fin 26) (e : Fin 16) :
    val_main_v37 (F := Ideal) x0 x1 x4 (ix3 r f e) = firstEmb (rXvs x1 r) (rE1 x0 x4 r) f e := by
  have h1 : idx_main_v35 (idx_main_v36 (ix3 r f e)) = ix2 r f := by coords2
  rw [val_main_v37_apply, val_main_v36_apply, val_main_v35_apply, h1]
  rfl

/-- The two flattened blocks joined along the columns. -/
theorem v40_at (k : Fin 624) :
    val_main_v40 (F := Ideal) x0 x1 x2 x3 x4 (ix2 r k)
      = if h : k.val < 208 then firstLin (rXi x0 r) (rXvd x1 r) (tab x2) (tab x3) (hi13 ⟨k.val, h⟩) (lo13 ⟨k.val, h⟩)
        else firstEmb (rXvs x1 r) (rE1 x0 x4 r) (hi26 ⟨k.val - 208, by have := k.isLt; omega⟩)
          (lo26 ⟨k.val - 208, by have := k.isLt; omega⟩) := by
  unfold val_main_v40
  refine (concatCols_apply _ _ concatenates_S16384x208_S16384x416_S16384x624_d1 rfl r k).trans ?_
  by_cases h : k.val < 208
  · rw [dif_pos h, dif_pos h, val_main_v38_apply, idx38, v19_at]
  · rw [dif_neg h, dif_neg h, val_main_v39_apply, idx39, v37_at]

/-- The reference sums the joined array's 624 columns at once; the sum splits into the two blocks' sums. -/
theorem v106_at :
    val_main_v106 (F := Ideal) x0 x1 x2 x3 x4 (ix1 r)
      = firstSum (rXi x0 r) (rXvd x1 r) (rXvs x1 r) (rE1 x0 x4 r) (tab x2) (tab x3) := by
  rw [val_main_v106_apply, val_main_cst_13_apply, Ideal.ofBits_def, Ideal.ofBits_zero_f32, zero_add]
  refine (Finset.sum_congr rfl fun k _ => ?_).trans
    (sum_concat (fun k => firstLin (rXi x0 r) (rXvd x1 r) (tab x2) (tab x3) (hi13 k) (lo13 k))
      (fun k => firstEmb (rXvs x1 r) (rE1 x0 x4 r) (hi26 k) (lo26 k)))
  have hk : idx_main_v106 (ix1 r) k = ix2 r k := by coords2
  rw [hk]
  exact v40_at x0 x1 x2 x3 x4 r k

/-! ## The second-order term -/

/-- The dense fields' affine images `xi · w2 + b2`. -/
theorem v48_at (f : Fin 13) (e : Fin 16) :
    val_main_v48 (F := Ideal) x0 x5 x6 (ix3 r f e) = secLin (rXi x0 r) (tab x5) (tab x6) f e := by
  have h1 : idx_main_v41 (idx_main_v43 (ix3 r f e)) = ix2 r f := by coords2
  have h2 : idx_main_v42 (idx_main_v44 (ix3 r f e)) = ix2 f e := by coords2
  have h3 : idx_main_v46 (idx_main_v47 (ix3 r f e)) = ix2 f e := by coords2
  rw [val_main_v48_apply, val_main_v45_apply, val_main_v43_apply, val_main_v41_apply, val_main_v44_apply,
    val_main_v42_apply, val_main_v47_apply, val_main_v46_apply, h1, h2, h3]
  rfl

/-- The sparse fields' weighted rows. -/
theorem v66_at (f : Fin 26) (e : Fin 16) :
    val_main_v66 (F := Ideal) x0 x1 x7 (ix3 r f e) = secEmb (rXvs x1 r) (rE2 x0 x7 r) f e := by
  have h1 : idx_main_v64 (idx_main_v65 (ix3 r f e)) = ix2 r f := by coords2
  rw [val_main_v66_apply, val_main_v65_apply, val_main_v64_apply, h1]
  rfl

/-- Per component, the sum over all 39 fields. -/
theorem v69_at (e : Fin 16) :
    val_main_v69 (F := Ideal) x0 x1 x5 x6 x7 (ix2 r e)
      = sumEmb (rXi x0 r) (rXvs x1 r) (rE2 x0 x7 r) (tab x5) (tab x6) e := by
  rw [val_main_v69_apply, val_main_v67_apply, val_main_v68_apply, val_main_cst_apply, val_main_cst_7_apply,
    Ideal.ofBits_def, Ideal.ofBits_zero_f32, zero_add, zero_add, Ideal.addf_def]
  unfold sumEmb
  refine congrArg₂ (· + ·) (Finset.sum_congr rfl fun f _ => ?_) (Finset.sum_congr rfl fun f _ => ?_)
  · have h : idx_main_v67 (ix2 r e) f = ix3 r f e := by coords3
    rw [h]
    exact v48_at x0 x5 x6 r f e
  · have h : idx_main_v68 (ix2 r e) f = ix3 r f e := by coords3
    rw [h]
    exact v66_at x0 x1 x7 r f e

/-- Per component, the sum of the squares over all 39 fields. -/
theorem v74_at (e : Fin 16) :
    val_main_v74 (F := Ideal) x0 x1 x5 x6 x7 (ix2 r e)
      = sumSq (rXi x0 r) (rXvs x1 r) (rE2 x0 x7 r) (tab x5) (tab x6) e := by
  rw [val_main_v74_apply, val_main_v71_apply, val_main_v73_apply, val_main_cst_8_apply, val_main_cst_9_apply,
    Ideal.ofBits_def, Ideal.ofBits_zero_f32, zero_add, zero_add, Ideal.addf_def]
  unfold sumSq
  refine congrArg₂ (· + ·) (Finset.sum_congr rfl fun f _ => ?_) (Finset.sum_congr rfl fun f _ => ?_)
  · have h : idx_main_v71 (ix2 r e) f = ix3 r f e := by coords3
    rw [h, val_main_v70_apply, v48_at]
    rfl
  · have h : idx_main_v73 (ix2 r e) f = ix3 r f e := by coords3
    rw [h, val_main_v72_apply, v66_at]
    rfl

/-- One component's contribution: (square of the sum − sum of the squares) · ½. -/
theorem v78_at (e : Fin 16) :
    val_main_v78 (F := Ideal) x0 x1 x5 x6 x7 (ix2 r e)
      = (sumEmb (rXi x0 r) (rXvs x1 r) (rE2 x0 x7 r) (tab x5) (tab x6) e
            * sumEmb (rXi x0 r) (rXvs x1 r) (rE2 x0 x7 r) (tab x5) (tab x6) e
          - sumSq (rXi x0 r) (rXvs x1 r) (rE2 x0 x7 r) (tab x5) (tab x6) e) * cHalf := by
  rw [val_main_v78_apply, val_main_v76_apply, val_main_v75_apply, v69_at, v74_at, val_main_v77_apply,
    val_main_cst_10_apply]
  rfl

/-- The second-order term: the 16 components' contributions summed. -/
theorem v107_at :
    val_main_v107 (F := Ideal) x0 x1 x5 x6 x7 (ix1 r)
      = secondSum (rXi x0 r) (rXvs x1 r) (rE2 x0 x7 r) (tab x5) (tab x6) := by
  rw [val_main_v107_apply, val_main_cst_14_apply, Ideal.ofBits_def, Ideal.ofBits_zero_f32, zero_add]
  unfold secondSum
  refine Finset.sum_congr rfl fun e _ => ?_
  have h : idx_main_v107 (ix1 r) e = ix2 r e := by coords2
  rw [h]
  exact v78_at x0 x1 x5 x6 x7 r e

/-! ## The deep term -/

/-- The deep part's input: the flattened `secLin` block, then the flattened `secEmb` block. -/
theorem v81_at (k : Fin 624) :
    val_main_v81 (F := Ideal) x0 x1 x5 x6 x7 (ix2 r k)
      = deepIn (rXi x0 r) (rXvs x1 r) (rE2 x0 x7 r) (tab x5) (tab x6) k := by
  unfold val_main_v81 deepIn
  refine (concatCols_apply _ _ concatenates_S16384x208_S16384x416_S16384x624_d1 rfl r k).trans ?_
  by_cases h : k.val < 208
  · rw [dif_pos h, dif_pos h, val_main_v79_apply, idx79, v48_at]
  · rw [dif_neg h, dif_neg h, val_main_v80_apply, idx80, v66_at]

/-- The first layer's product with its matrix. -/
theorem v82_at (j : Fin 512) :
    val_main_v82 (F := Ideal) x0 x1 x5 x6 x7 x8 (ix2 r j)
      = ∑ k : Fin 624, deepIn (rXi x0 r) (rXvs x1 r) (rE2 x0 x7 r) (tab x5) (tab x6) k * mat1 x8 k j := by
  rw [val_main_v82_apply]
  refine Finset.sum_congr rfl fun k _ => ?_
  have h1 : lidx_main_v82 (ix2 r j) k = ix2 r k := by coords2
  have h2 : ridx_main_v82 (ix2 r j) k = ix2 k j := by coords2
  rw [h1, h2, v81_at]

/-- The first layer: the product, its offset, the scale, the gain and the second offset. -/
theorem v93_at (j : Fin 512) :
    val_main_v93 (F := Ideal) x0 x1 x5 x6 x7 x8 x9 x10 x11 (ix2 r j)
      = hid1 (rXi x0 r) (rXvs x1 r) (rE2 x0 x7 r) (tab x5) (tab x6) (mat1 x8) (vec1 x9) (vec1 x10) (vec1 x11) j := by
  have h1 : idx_main_v83 (idx_main_v84 (ix2 r j)) = ix1 j := by coords1
  have h2 : idx_main_v88 (idx_main_v89 (ix2 r j)) = ix1 j := by coords1
  have h3 : idx_main_v91 (idx_main_v92 (ix2 r j)) = ix1 j := by coords1
  rw [val_main_v93_apply, val_main_v90_apply, val_main_v87_apply, val_main_v85_apply, v82_at, val_main_v84_apply,
    val_main_v83_apply, val_main_v86_apply, val_main_cst_11_apply, val_main_v89_apply, val_main_v88_apply,
    val_main_v92_apply, val_main_v91_apply, h1, h2, h3]
  rfl

/-- The second layer's product with its matrix. -/
theorem v94_at (j : Fin 256) :
    val_main_v94 (F := Ideal) x0 x1 x5 x6 x7 x8 x9 x10 x11 x12 (ix2 r j)
      = ∑ k : Fin 512, hid1 (rXi x0 r) (rXvs x1 r) (rE2 x0 x7 r) (tab x5) (tab x6) (mat1 x8) (vec1 x9) (vec1 x10)
          (vec1 x11) k * mat2 x12 k j := by
  rw [val_main_v94_apply]
  refine Finset.sum_congr rfl fun k _ => ?_
  have h1 : lidx_main_v94 (ix2 r j) k = ix2 r k := by coords2
  have h2 : ridx_main_v94 (ix2 r j) k = ix2 k j := by coords2
  rw [h1, h2, v93_at]

/-- The second layer. -/
theorem v105_at (j : Fin 256) :
    val_main_v105 (F := Ideal) x0 x1 x5 x6 x7 x8 x9 x10 x11 x12 x13 x14 x15 (ix2 r j)
      = hid2 (rXi x0 r) (rXvs x1 r) (rE2 x0 x7 r) (tab x5) (tab x6) (mat1 x8) (vec1 x9) (vec1 x10) (vec1 x11)
          (mat2 x12) (vec2 x13) (vec2 x14) (vec2 x15) j := by
  have h1 : idx_main_v95 (idx_main_v96 (ix2 r j)) = ix1 j := by coords1
  have h2 : idx_main_v100 (idx_main_v101 (ix2 r j)) = ix1 j := by coords1
  have h3 : idx_main_v103 (idx_main_v104 (ix2 r j)) = ix1 j := by coords1
  rw [val_main_v105_apply, val_main_v102_apply, val_main_v99_apply, val_main_v97_apply, v94_at, val_main_v96_apply,
    val_main_v95_apply, val_main_v98_apply, val_main_cst_12_apply, val_main_v101_apply, val_main_v100_apply,
    val_main_v104_apply, val_main_v103_apply, h1, h2, h3]
  rfl

/-- The deep term: the 256 outputs summed. -/
theorem v109_at :
    val_main_v109 (F := Ideal) x0 x1 x5 x6 x7 x8 x9 x10 x11 x12 x13 x14 x15 (ix1 r)
      = deepSum (rXi x0 r) (rXvs x1 r) (rE2 x0 x7 r) (tab x5) (tab x6) (mat1 x8) (vec1 x9) (vec1 x10) (vec1 x11)
          (mat2 x12) (vec2 x13) (vec2 x14) (vec2 x15) := by
  rw [val_main_v109_apply, val_main_cst_15_apply, Ideal.ofBits_def, Ideal.ofBits_zero_f32, zero_add]
  unfold deepSum
  refine Finset.sum_congr rfl fun j _ => ?_
  have h : idx_main_v109 (ix1 r) j = ix2 r j := by coords2
  rw [h]
  exact v105_at x0 x1 x5 x6 x7 x8 x9 x10 x11 x12 x13 x14 x15 r j

/-! ## The result at row `r` -/

/-- The three terms and the bias, in the reference's association. -/
theorem v111_at :
    val_main_v111 (F := Ideal) x0 x1 x2 x3 x4 x5 x6 x7 x8 x9 x10 x11 x12 x13 x14 x15 x16 (ix1 r)
      = row (rXi x0 r) (rXvd x1 r) (rXvs x1 r) (rE1 x0 x4 r) (rE2 x0 x7 r) (tab x2) (tab x3) (tab x5) (tab x6)
          (mat1 x8) (vec1 x9) (vec1 x10) (vec1 x11) (mat2 x12) (vec2 x13) (vec2 x14) (vec2 x15) (x16 (ix1 r)) := by
  rw [val_main_v111_apply, val_main_v110_apply, val_main_v108_apply, v106_at, v107_at, v109_at]
  rfl

end Row

/-- THE REFERENCE'S RESULT: entry `r` is `FmRow.row` of the row-`r` slices and the shared tables. -/
theorem result_apply (x0 : (⟨S16384x39x1, .i32⟩ : BufTy).Contents (Elt Ideal)) (x1 : (⟨S16384x39, .f32⟩ : BufTy).Contents (Elt Ideal))
    (x2 x3 : (⟨S13x16, .f32⟩ : BufTy).Contents (Elt Ideal)) (x4 : (⟨S26x100000x16, .f32⟩ : BufTy).Contents (Elt Ideal))
    (x5 x6 : (⟨S13x16, .f32⟩ : BufTy).Contents (Elt Ideal)) (x7 : (⟨S26x100000x16, .f32⟩ : BufTy).Contents (Elt Ideal))
    (x8 : (⟨S624x512, .f32⟩ : BufTy).Contents (Elt Ideal)) (x9 x10 x11 : (⟨S512, .f32⟩ : BufTy).Contents (Elt Ideal))
    (x12 : (⟨S512x256, .f32⟩ : BufTy).Contents (Elt Ideal)) (x13 x14 x15 : (⟨S256, .f32⟩ : BufTy).Contents (Elt Ideal))
    (x16 : (⟨S16384, .f32⟩ : BufTy).Contents (Elt Ideal)) :
    val_main_v111 (F := Ideal) x0 x1 x2 x3 x4 x5 x6 x7 x8 x9 x10 x11 x12 x13 x14 x15 x16
      = FmRow.arr (val_main_v2 (F := Ideal) x0) (val_main_v5 (F := Ideal) x1) (val_main_v6 (F := Ideal) x1)
          (val_main_v34 (F := Ideal) x0 x4) (val_main_v63 (F := Ideal) x0 x7) x2 x3 x5 x6 x8 x9 x10 x11 x12 x13 x14 x15 x16 := by
  funext i
  obtain ⟨r, rfl⟩ : ∃ r : Fin 16384, i = ix1 r := ⟨i 0, eq_ix1 i⟩
  exact v111_at x0 x1 x2 x3 x4 x5 x6 x7 x8 x9 x10 x11 x12 x13 x14 x15 x16 r

end Cert.ReferenceIdeal.RowValue

end
-- ==== Proof.HostPrefix1.lean ====
/-
  Before its one region the kernel's program applies to its arguments the very host operations the reference begins with
  (a slice and a conversion of the index array to floats, two slices of the weights, the table lookup): the arrays the
  region finds are the reference's own stages of the same arguments.  Here: the dense scalars, the two weight slices and the
  first lookup.
-/
import proofs.«426230_j27169963114981_1_alg».proof.Proof.Gen.KernelIdeal.Frame
import proofs.«426230_j27169963114981_1_alg».proof.Proof.Gen.ReferenceIdeal.Read
import Idealize.ShloMosaic.Lib.StableHlo.Run
import Idealize.ShloMosaic.PureOps.Ideal

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

set_option maxHeartbeats 16000000 in
set_option maxRecDepth 8192 in
/-- The dense fields' scalars as floats. -/
theorem V_v2 (c : Dev nD) :
    (V m c main_v2 : S16384x13.Idx → EReal)
      = Cert.ReferenceIdeal.Read.val_main_v2 (F := Ideal) (m ((c : Thread nD τ).loc main_arg0)) := by
  dsimp only [Gen.V, Gen.hostOps0]
  after_results
  rfl

set_option maxHeartbeats 16000000 in
set_option maxRecDepth 8192 in
/-- The dense fields' weights. -/
theorem V_v5 (c : Dev nD) :
    (V m c main_v5 : S16384x13.Idx → EReal)
      = Cert.ReferenceIdeal.Read.val_main_v5 (F := Ideal) (m ((c : Thread nD τ).loc main_arg1)) := by
  dsimp only [Gen.V, Gen.hostOps0]
  after_results
  rfl

set_option maxHeartbeats 16000000 in
set_option maxRecDepth 8192 in
/-- The sparse fields' weights. -/
theorem V_v6 (c : Dev nD) :
    (V m c main_v6 : S16384x26.Idx → EReal)
      = Cert.ReferenceIdeal.Read.val_main_v6 (F := Ideal) (m ((c : Thread nD τ).loc main_arg1)) := by
  dsimp only [Gen.V, Gen.hostOps0]
  after_results
  rfl

set_option maxHeartbeats 16000000 in
set_option maxRecDepth 8192 in
/-- The first-order embedding rows, looked up. -/
theorem V_v23 (c : Dev nD) :
    (V m c main_v23 : S16384x26x16.Idx → EReal)
      = Cert.ReferenceIdeal.Read.val_main_v34 (F := Ideal) (m ((c : Thread nD τ).loc main_arg0)) (m ((c : Thread nD τ).loc main_arg4)) := by
  dsimp only [Gen.V, Gen.hostOps0]
  after_results
  rfl

end Cert.KernelIdeal.HostPrefix

end
-- ==== Proof.HostPrefix2.lean ====
/-
  The second table lookup the kernel's program makes before its region is the reference's own stage of the same arguments.
-/
import proofs.«426230_j27169963114981_1_alg».proof.Proof.Gen.KernelIdeal.Frame
import proofs.«426230_j27169963114981_1_alg».proof.Proof.Gen.ReferenceIdeal.Read
import Idealize.ShloMosaic.Lib.StableHlo.Run
import Idealize.ShloMosaic.PureOps.Ideal

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

set_option maxHeartbeats 16000000 in
set_option maxRecDepth 8192 in
/-- The second-order embedding rows, looked up. -/
theorem V_v38 (c : Dev nD) :
    (V m c main_v38 : S16384x26x16.Idx → EReal)
      = Cert.ReferenceIdeal.Read.val_main_v63 (F := Ideal) (m ((c : Thread nD τ).loc main_arg0)) (m ((c : Thread nD τ).loc main_arg7)) := by
  dsimp only [Gen.V, Gen.hostOps0]
  after_results
  rfl

end Cert.KernelIdeal.HostPrefix

end
-- ==== Proof.lean ====
/-
  A factorization-machine model with a deep part, one batch row at a time: the kernel computes, for every row of the
  batch, a first-order term (two flattened blocks summed), a second-order term (per component: the square of the fields'
  sum less the sum of the squares, halved) and a two-layer deep term, plus the row's bias; the reference computes the same
  with whole-batch array operations.  Both programs first slice the index array, convert the dense part to floats and look
  the sparse part up in the two embedding tables, with the very same host operations, so those five arrays enter both
  sides as the same terms and the lookup is never opened.

  The row function and the whole result are `FmRow.row` / `FmRow.arr` (Proof/FmSpec.lean).  The kernel's body at a block
  row is `row` of the block's row slices (Proof/KernelRow.lean); each grid point writes its block of 1024 rows back and the
  16 blocks tile the result, so the kernel's result array is `arr` of the arrays its region finds (Proof/KernelValue.lean);
  the reference's composed term is `arr` of its own stages (Proof/RefRow.lean), where its ONE sum over the concatenated
  first-order blocks is split into the kernel's two sums — the only law between the two sides, and one that holds on all
  extended reals; the arrays the region finds are the reference's stages (Proof/HostPrefix1.lean, Proof/HostPrefix2.lean).
  No step uses that the inputs are finite.
-/
import proofs.«426230_j27169963114981_1_alg».proof.Defs
import proofs.«426230_j27169963114981_1_alg».proof.Proof.Gen.Kernel
import proofs.«426230_j27169963114981_1_alg».proof.Proof.Gen.Kernel.Skeleton
import proofs.«426230_j27169963114981_1_alg».proof.Proof.Gen.Kernel.Launch
import proofs.«426230_j27169963114981_1_alg».proof.Proof.Gen.Kernel.Points
import proofs.«426230_j27169963114981_1_alg».proof.Proof.Gen.Kernel.Frame
import proofs.«426230_j27169963114981_1_alg».proof.Proof.Gen.KernelIdeal
import proofs.«426230_j27169963114981_1_alg».proof.Proof.Gen.KernelIdeal.Skeleton
import proofs.«426230_j27169963114981_1_alg».proof.Proof.Gen.KernelIdeal.Launch
import proofs.«426230_j27169963114981_1_alg».proof.Proof.Gen.KernelIdeal.Points
import proofs.«426230_j27169963114981_1_alg».proof.Proof.Gen.KernelIdeal.Frame
import proofs.«426230_j27169963114981_1_alg».proof.Proof.Gen.ReferenceIdeal
import proofs.«426230_j27169963114981_1_alg».proof.Proof.Gen.Pre_finite_inputs
import proofs.«426230_j27169963114981_1_alg».proof.Proof.Gen.KernelIdeal.Value
import proofs.«426230_j27169963114981_1_alg».proof.Proof.Gen.ReferenceIdeal.Run
import proofs.«426230_j27169963114981_1_alg».proof.Proof.Gen.ReferenceIdeal.Read
import proofs.«426230_j27169963114981_1_alg».proof.Proof.KernelValue
import proofs.«426230_j27169963114981_1_alg».proof.Proof.RefRow
import proofs.«426230_j27169963114981_1_alg».proof.Proof.HostPrefix1
import proofs.«426230_j27169963114981_1_alg».proof.Proof.HostPrefix2
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at `FmRow.arr` of the same five batch arrays, twelve tables and bias. -/
theorem algebraic : Cert.algebraic_KernelIdeal_ReferenceIdeal := by
  intro m ρ m' ρ' _ hagree
  refine ⟨fun c => Cert.KernelIdeal.ArrValue.G m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v111_eq, Cert.ReferenceIdeal.RowValue.result_apply,
    h0, h1, h2, h3, h4, h5, h6, h7, h8, h9, h10, h11, h12, h13, h14, h15, h16]
  show _ = FmRow.arr _ _ _ _ _ _ _ _ _ _ _ _ _ _ _ _ _ _
  rw [Cert.KernelIdeal.HostPrefix.V_v2 m c, Cert.KernelIdeal.HostPrefix.V_v5 m c, Cert.KernelIdeal.HostPrefix.V_v6 m c,
    Cert.KernelIdeal.HostPrefix.V_v23 m c, Cert.KernelIdeal.HostPrefix.V_v38 m c,
    Cert.KernelIdeal.Gen.V_main_arg2 m c, Cert.KernelIdeal.Gen.V_main_arg3 m c, Cert.KernelIdeal.Gen.V_main_arg5 m c,
    Cert.KernelIdeal.Gen.V_main_arg6 m c, Cert.KernelIdeal.Gen.V_main_arg8 m c, Cert.KernelIdeal.Gen.V_main_arg9 m c,
    Cert.KernelIdeal.Gen.V_main_arg10 m c, Cert.KernelIdeal.Gen.V_main_arg11 m c, Cert.KernelIdeal.Gen.V_main_arg12 m c,
    Cert.KernelIdeal.Gen.V_main_arg13 m c, Cert.KernelIdeal.Gen.V_main_arg14 m c, Cert.KernelIdeal.Gen.V_main_arg15 m c,
    Cert.KernelIdeal.Gen.V_main_arg16 m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
